-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x300x13 : Shape := ⟨3, ![64, 300, 13]⟩
abbrev S64x300x4 : Shape := ⟨3, ![64, 300, 4]⟩
abbrev S64x32x4 : Shape := ⟨3, ![64, 32, 4]⟩
abbrev S64x32 : Shape := ⟨2, ![64, 32]⟩
abbrev S_ : Shape := ⟨0, ![]⟩

class Facts : Prop where
  bcast_S_S64x300x13 : S_.BroadcastsInDim S64x300x13 (![] : Fin 0 → Fin S64x300x13.rank)
  reducesTo_S64x300x13_S_d0_1_2 : S64x300x13.ReducesTo [0, 1, 2] S_
  h_S_ : 0 < S_.numel
  bcast_S_S64x300x4 : S_.BroadcastsInDim S64x300x4 (![] : Fin 0 → Fin S64x300x4.rank)
  reducesTo_S64x300x4_S_d0_1_2 : S64x300x4.ReducesTo [0, 1, 2] S_
  bcast_S_S64x32x4 : S_.BroadcastsInDim S64x32x4 (![] : Fin 0 → Fin S64x32x4.rank)
  reducesTo_S64x32x4_S_d0_1_2 : S64x32x4.ReducesTo [0, 1, 2] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_arg3 : IVec S64x32 32) (main_v13 : IVec S_ 1) (main_v15 : IVec S64x32 1) (main_c_5 : IVec S_ 32) : IVec S_ 1 :=
  let main_v16 : IVec S64x32 32 := broadcastInDim S64x32 ![] bcast_S_S64x32 main_c_5
  let main_v17 : IVec S64x32 1 := cmpi .slt main_arg3 main_v16
  let main_v18 : IVec S64x32 1 := andi main_v15 main_v17
  let main_c_6 : IVec S_ 1 := constantI S_ 1 1#1
  let main_v19 : IVec S_ 1 := (fun x v => Host.reduce IntOp.andi x v reducesTo_S64x32_S_d0_1 h_S_) main_v18 main_c_6
  let main_v20 : IVec S_ 1 := andi main_v13 main_v19
  main_v20

def fn {F : FTy → Type} [FloatOps F] (main_arg0 : FVec F S64x300x13 .f32) (main_arg1 : FVec F S64x300x4 .f32) (main_arg2 : FVec F S64x32x4 .f32) (main_arg3 : IVec S64x32 32) : IVec S_ 1 :=
  let main_v0 : FVec F S64x300x13 .f32 := Host.absf main_arg0
  let main_cst : FVec F S_ .f32 := constant S_ .f32 0x7F800000#32
  let main_v1 : FVec F S64x300x13 .f32 := broadcastInDim S64x300x13 ![] bcast_S_S64x300x13 main_cst
  let main_v2 : IVec S64x300x13 1 := cmpf .olt main_v0 main_v1
  let main_c : IVec S_ 1 := constantI S_ 1 1#1
  let main_v3 : IVec S_ 1 := (fun x v => Host.reduce IntOp.andi x v reducesTo_S64x300x13_S_d0_1_2 h_S_) main_v2 main_c
  let main_v4 : FVec F S64x300x4 .f32 := Host.absf main_arg1
  let main_cst_0 : FVec F S_ .f32 := constant S_ .f32 0x7F800000#32
  let main_v5 : FVec F S64x300x4 .f32 := broadcastInDim S64x300x4 ![] bcast_S_S64x300x4 main_cst_0
  let main_v6 : IVec S64x300x4 1 := cmpf .olt main_v4 main_v5
  let main_c_1 : IVec S_ 1 := constantI S_ 1 1#1
  let main_v7 : IVec S_ 1 := (fun x v => Host.reduce IntOp.andi x v reducesTo_S64x300x4_S_d0_1_2 h_S_) main_v6 main_c_1
  let main_v8 : IVec S_ 1 := andi main_v3 main_v7
  let main_v9 : FVec F S64x32x4 .f32 := Host.absf main_arg2
  let main_cst_2 : FVec F S_ .f32 := constant S_ .f32 0x7F800000#32
  let main_v10 : FVec F S64x32x4 .f32 := broadcastInDim S64x32x4 ![] bcast_S_S64x32x4 main_cst_2
  let main_v11 : IVec S64x32x4 1 := cmpf .olt main_v9 main_v10
  let main_c_3 : IVec S_ 1 := constantI S_ 1 1#1
  let main_v12 : IVec S_ 1 := (fun x v => Host.reduce IntOp.andi x v reducesTo_S64x32x4_S_d0_1_2 h_S_) main_v11 main_c_3
  let main_v13 : IVec S_ 1 := andi main_v8 main_v12
  let main_c_4 : IVec S_ 32 := constantI S_ 32 0#32
  let main_v14 : IVec S64x32 32 := broadcastInDim S64x32 ![] bcast_S_S64x32 main_c_4
  let main_v15 : IVec S64x32 1 := cmpi .sge main_arg3 main_v14
  let main_c_5 : IVec S_ 32 := constantI S_ 32 13#32
  fn_part1 (F := F) main_arg3 main_v13 main_v15 main_c_5
-- ==== Kernel.lean ====
abbrev S64x300x13 : Shape := ⟨3, ![64, 300, 13]⟩
abbrev S64x300x4 : Shape := ⟨3, ![64, 300, 4]⟩
abbrev S64x32x4 : Shape := ⟨3, ![64, 32, 4]⟩
abbrev S64x32 : Shape := ⟨2, ![64, 32]⟩
abbrev S19200x13 : Shape := ⟨2, ![19200, 13]⟩
abbrev S19200x4 : Shape := ⟨2, ![19200, 4]⟩
abbrev S1x32x4 : Shape := ⟨3, ![1, 32, 4]⟩
abbrev S32x4 : Shape := ⟨2, ![32, 4]⟩
abbrev S1x32 : Shape := ⟨2, ![1, 32]⟩
abbrev S32 : Shape := ⟨1, ![32]⟩
abbrev S13 : Shape := ⟨1, ![13]⟩
abbrev S13x1 : Shape := ⟨2, ![13, 1]⟩
abbrev S13x32 : Shape := ⟨2, ![13, 32]⟩
abbrev S4x32 : Shape := ⟨2, ![4, 32]⟩
abbrev S4800x128 : Shape := ⟨2, ![4800, 128]⟩
abbrev S2400x13 : Shape := ⟨2, ![2400, 13]⟩
abbrev S2400x4 : Shape := ⟨2, ![2400, 4]⟩
abbrev S600x128 : Shape := ⟨2, ![600, 128]⟩
abbrev S2400 : Shape := ⟨1, ![2400]⟩
abbrev S2400x1 : Shape := ⟨2, ![2400, 1]⟩
abbrev S2400x32 : Shape := ⟨2, ![2400, 32]⟩
abbrev S19200x32 : Shape := ⟨2, ![19200, 32]⟩
abbrev S64x300x32 : Shape := ⟨3, ![64, 300, 32]⟩

abbrev nBuf : Space → Nat
  | .hbm => 21
  | .vmem => 8
  | .smem => 0
  | _ => 0

abbrev bufTy : (tb : Table) → Fin (tcTables nBuf tb) → BufTy
  | .hbm, ⟨0, _⟩ => ⟨S64x300x13, .f32⟩
  | .hbm, ⟨1, _⟩ => ⟨S64x300x4, .f32⟩
  | .hbm, ⟨2, _⟩ => ⟨S64x32x4, .f32⟩
  | .hbm, ⟨3, _⟩ => ⟨S64x32, .i32⟩
  | .hbm, ⟨4, _⟩ => ⟨S19200x13, .f32⟩
  | .hbm, ⟨5, _⟩ => ⟨S19200x4, .f32⟩
  | .hbm, ⟨6, _⟩ => ⟨S1x32x4, .f32⟩
  | .hbm, ⟨7, _⟩ => ⟨S32x4, .f32⟩
  | .hbm, ⟨8, _⟩ => ⟨S1x32, .i32⟩
  | .hbm, ⟨9, _⟩ => ⟨S32, .i32⟩
  | .hbm, ⟨10, _⟩ => ⟨S13, .i32⟩
  | .hbm, ⟨11, _⟩ => ⟨S13x1, .i32⟩
  | .hbm, ⟨12, _⟩ => ⟨S1x32, .i32⟩
  | .hbm, ⟨13, _⟩ => ⟨S13x32, .i32⟩
  | .hbm, ⟨14, _⟩ => ⟨S13x32, .i32⟩
  | .hbm, ⟨15, _⟩ => ⟨S13x32, .i1⟩
  | .hbm, ⟨16, _⟩ => ⟨S13x32, .f32⟩
  | .hbm, ⟨17, _⟩ => ⟨S4x32, .f32⟩
  | .hbm, ⟨18, _⟩ => ⟨S4800x128, .f32⟩
  | .hbm, ⟨19, _⟩ => ⟨S19200x32, .f32⟩
  | .hbm, ⟨20, _⟩ => ⟨S64x300x32, .f32⟩
  | .local _ .vmem, ⟨0, _⟩ => ⟨S13x32, .f32⟩
  | .local _ .vmem, ⟨1, _⟩ => ⟨S4x32, .f32⟩
  | .local _ .vmem, ⟨2, _⟩ => ⟨S2400x13, .f32⟩
  | .local _ .vmem, ⟨3, _⟩ => ⟨S2400x13, .f32⟩
  | .local _ .vmem, ⟨4, _⟩ => ⟨S2400x4, .f32⟩
  | .local _ .vmem, ⟨5, _⟩ => ⟨S2400x4, .f32⟩
  | .local _ .vmem, ⟨6, _⟩ => ⟨S600x128, .f32⟩
  | .local _ .vmem, ⟨7, _⟩ => ⟨S600x128, .f32⟩
  | _, _ => ⟨S64x300x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S13x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2400x13 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2400x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S600x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x300x13_S19200x13 : S64x300x13.ShapeCasts S19200x13
  shapeCasts_S64x300x4_S19200x4 : S64x300x4.ShapeCasts S19200x4
  slices_S64x32x4_S1x32x4_0_0_0 : S64x32x4.Slices ![0, 0, 0] S1x32x4
  shapeCasts_S1x32x4_S32x4 : S1x32x4.ShapeCasts S32x4
  slices_S64x32_S1x32_0_0 : S64x32.Slices ![0, 0] S1x32
  shapeCasts_S1x32_S32 : S1x32.ShapeCasts S32
  bcast_S13_S13x1_0 : S13.BroadcastsInDim S13x1 (![0] : Fin 1 → Fin S13x1.rank)
  bcast_S32_S1x32_1 : S32.BroadcastsInDim S1x32 (![1] : Fin 1 → Fin S1x32.rank)
  bcast_S1x32_S13x32_0_1 : S1x32.BroadcastsInDim S13x32 (![0, 1] : Fin 2 → Fin S13x32.rank)
  bcast_S13x1_S13x32_0_1 : S13x1.BroadcastsInDim S13x32 (![0, 1] : Fin 2 → Fin S13x32.rank)
  transposes_S32x4_S4x32_1_0 : S32x4.Transposes [1, 0] S4x32
  inb_S2400x13_S2400x13_0_0 : ∀ a, (![0, 0] : Fin 2 → Nat) a + S2400x13.size a ≤ S2400x13.size a
  h_S2400x13 : 0 < S2400x13.numel
  shapeCasts_S2400x13_S2400x13 : S2400x13.ShapeCasts S2400x13
  reduces_S2400x13_S2400 : S2400x13.Reduces [1] S2400
  shapeCasts_S2400_S2400x1 : S2400.ShapeCasts S2400x1
  broadcasts_S2400x1_S2400x13 : S2400x1.Broadcasts S2400x13
  inb_S13x32_S13x32_0_0 : ∀ a, (![0, 0] : Fin 2 → Nat) a + S13x32.size a ≤ S13x32.size a
  h_S13x32 : 0 < S13x32.numel
  shapeCasts_S13x32_S13x32 : S13x32.ShapeCasts S13x32
  inb_S2400x4_S2400x4_0_0 : ∀ a, (![0, 0] : Fin 2 → Nat) a + S2400x4.size a ≤ S2400x4.size a
  h_S2400x4 : 0 < S2400x4.numel
  shapeCasts_S2400x4_S2400x4 : S2400x4.ShapeCasts S2400x4
  slices_S2400x4_o0_0_S2400x1 : S2400x4.Slices ![0, 0] S2400x1
  slices_S2400x4_o0_1_S2400x1 : S2400x4.Slices ![0, 1] S2400x1
  slices_S2400x4_o0_2_S2400x1 : S2400x4.Slices ![0, 2] S2400x1
  slices_S2400x4_o0_3_S2400x1 : S2400x4.Slices ![0, 3] S2400x1
  inb_S4x32_S4x32_0_0 : ∀ a, (![0, 0] : Fin 2 → Nat) a + S4x32.size a ≤ S4x32.size a
  h_S4x32 : 0 < S4x32.numel
  shapeCasts_S4x32_S4x32 : S4x32.ShapeCasts S4x32
  slices_S4x32_o0_0_S1x32 : S4x32.Slices ![0, 0] S1x32
  slices_S4x32_o1_0_S1x32 : S4x32.Slices ![1, 0] S1x32
  slices_S4x32_o2_0_S1x32 : S4x32.Slices ![2, 0] S1x32
  slices_S4x32_o3_0_S1x32 : S4x32.Slices ![3, 0] S1x32
  broadcasts_S2400x1_S2400x32 : S2400x1.Broadcasts S2400x32
  broadcasts_S1x32_S2400x32 : S1x32.Broadcasts S2400x32
  shapeCasts_S2400x32_S600x128 : S2400x32.ShapeCasts S600x128
  inb_S600x128_S600x128_0_0 : ∀ a, (![0, 0] : Fin 2 → Nat) a + S600x128.size a ≤ S600x128.size a
  h_S600x128 : 0 < S600x128.numel
  shapeCasts_S4800x128_S19200x32 : S4800x128.ShapeCasts S19200x32
  shapeCasts_S19200x32_S64x300x32 : S19200x32.ShapeCasts S64x300x32
  dot_S2400x13_S13x32_S2400x32_1_0_0_1_n_n_wf : DotDims.WF S2400x13 S13x32 S2400x32 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S13x32.size a ≤ S13x32.size a
  hwx0_0 : ∀ i : grid0.Coords, EltTy.bits .f32 = 32 ∨ (Rect.block (s := S13x32) S13x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x32.size a ≤ S4x32.size a
  hwx0_1 : ∀ i : grid0.Coords, EltTy.bits .f32 = 32 ∨ (Rect.block (s := S4x32) S4x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2400x13.size a ≤ S19200x13.size a
  hwx0_2 : ∀ i : grid0.Coords, EltTy.bits .f32 = 32 ∨ (Rect.block (s := S19200x13) S2400x13.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2400x4.size a ≤ S19200x4.size a
  hwx0_3 : ∀ i : grid0.Coords, EltTy.bits .f32 = 32 ∨ (Rect.block (s := S19200x4) S2400x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S600x128.size a ≤ S4800x128.size a
  hwx0_4 : ∀ i : grid0.Coords, EltTy.bits .f32 = 32 ∨ (Rect.block (s := S4800x128) S600x128.size (cc0_transform_4 i) (hinb0_4 i)).WholeWords (EltTy.packing .f32)

variable [Facts₀]

def dot_S2400x13_S13x32_S2400x32_1_0_0_1_n_n : DotDims S2400x13 S13x32 S2400x32 where
  lhsContracting := [1]
  rhsContracting := [0]
  lhsNonContracting := [0]
  rhsNonContracting := [1]
  lhsBatch := []
  rhsBatch := []
  wf := dot_S2400x13_S13x32_S2400x32_1_0_0_1_n_n_wf

abbrev win0_0 : Pipeline.Window sig grid0 :=
  Pipeline.Window.ofSpec (Memref.whole main_v12) S13x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2400x13.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2400x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S600x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x300x13 : Shape := ⟨3, ![64, 300, 13]⟩
abbrev S64x300x4 : Shape := ⟨3, ![64, 300, 4]⟩
abbrev S64x32x4 : Shape := ⟨3, ![64, 32, 4]⟩
abbrev S64x32 : Shape := ⟨2, ![64, 32]⟩
abbrev S19200x13 : Shape := ⟨2, ![19200, 13]⟩
abbrev S_ : Shape := ⟨0, ![]⟩
abbrev S19200 : Shape := ⟨1, ![19200]⟩
abbrev S19200x1 : Shape := ⟨2, ![19200, 1]⟩
abbrev S19200x4 : Shape := ⟨2, ![19200, 4]⟩
abbrev S2048x4 : Shape := ⟨2, ![2048, 4]⟩
abbrev S2048 : Shape := ⟨1, ![2048]⟩
abbrev S2048x1 : Shape := ⟨2, ![2048, 1]⟩
abbrev S19200x2048 : Shape := ⟨2, ![19200, 2048]⟩
abbrev S19200x1x4 : Shape := ⟨3, ![19200, 1, 4]⟩
abbrev S1x2048x4 : Shape := ⟨3, ![1, 2048, 4]⟩
abbrev S19200x2048x4 : Shape := ⟨3, ![19200, 2048, 4]⟩
abbrev S19200x2 : Shape := ⟨2, ![19200, 2]⟩
abbrev S19200x1x2 : Shape := ⟨3, ![19200, 1, 2]⟩
abbrev S2048x2 : Shape := ⟨2, ![2048, 2]⟩
abbrev S1x2048x2 : Shape := ⟨3, ![1, 2048, 2]⟩
abbrev S19200x2048x2 : Shape := ⟨3, ![19200, 2048, 2]⟩
abbrev S19200x2048x1 : Shape := ⟨3, ![19200, 2048, 1]⟩
abbrev S1x2048 : Shape := ⟨2, ![1, 2048]⟩
abbrev S64x300x2048 : Shape := ⟨3, ![64, 300, 2048]⟩
abbrev S64x300x32 : Shape := ⟨3, ![64, 300, 32]⟩

abbrev nBuf : Space → Nat
  | .hbm => 192
  | .vmem => 0
  | .smem => 0
  | _ => 0

abbrev hbmTy0_0 (i : Nat) : BufTy := match i % 128 with
  | 0 => ⟨S64x300x13, .f32⟩
  | 1 => ⟨S64x300x4, .f32⟩
  | 2 => ⟨S64x32x4, .f32⟩
  | 3 => ⟨S64x32, .i32⟩
  | 4 => ⟨S19200x13, .f32⟩
  | 5 => ⟨S_, .f32⟩
  | 6 => ⟨S19200, .f32⟩
  | 7 => ⟨S_, .f32⟩
  | 8 => ⟨S19200, .f32⟩
  | 9 => ⟨S19200, .f32⟩
  | 10 => ⟨S19200x1, .f32⟩
  | 11 => ⟨S19200x13, .f32⟩
  | 12 => ⟨S19200x13, .f32⟩
  | 13 => ⟨S19200x13, .f32⟩
  | 14 => ⟨S_, .f32⟩
  | 15 => ⟨S19200, .f32⟩
  | 16 => ⟨S19200x1, .f32⟩
  | 17 => ⟨S19200x13, .f32⟩
  | 18 => ⟨S19200x13, .f32⟩
  | 19 => ⟨S19200x4, .f32⟩
  | 20 => ⟨S2048x4, .f32⟩
  | 21 => ⟨S2048, .i32⟩
  | 22 => ⟨S_, .i32⟩
  | 23 => ⟨S2048, .i32⟩
  | 24 => ⟨S2048, .i1⟩
  | 25 => ⟨S_, .i32⟩
  | 26 => ⟨S2048, .i32⟩
  | 27 => ⟨S2048, .i32⟩
  | 28 => ⟨S2048, .i32⟩
  | 29 => ⟨S2048x1, .i32⟩
  | 30 => ⟨S19200x2048, .f32⟩
  | 31 => ⟨S19200x2048, .f32⟩
  | 32 => ⟨S19200x1x4, .f32⟩
  | 33 => ⟨S1x2048x4, .f32⟩
  | 34 => ⟨S19200x2048x4, .f32⟩
  | 35 => ⟨S19200x2048x4, .f32⟩
  | 36 => ⟨S19200x2048x4, .f32⟩
  | 37 => ⟨S19200x2048x4, .f32⟩
  | 38 => ⟨S_, .f32⟩
  | 39 => ⟨S19200x2048, .f32⟩
  | 40 => ⟨S19200x1, .f32⟩
  | 41 => ⟨S19200, .f32⟩
  | 42 => ⟨S19200x1, .f32⟩
  | 43 => ⟨S19200, .f32⟩
  | 44 => ⟨S19200x1, .f32⟩
  | 45 => ⟨S19200, .f32⟩
  | 46 => ⟨S19200x1, .f32⟩
  | 47 => ⟨S19200, .f32⟩
  | 48 => ⟨S_, .f32⟩
  | 49 => ⟨S19200, .f32⟩
  | 50 => ⟨S19200, .f32⟩
  | 51 => ⟨S19200, .f32⟩
  | 52 => ⟨S_, .f32⟩
  | 53 => ⟨S19200, .f32⟩
  | 54 => ⟨S19200, .f32⟩
  | 55 => ⟨S19200, .f32⟩
  | 56 => ⟨S_, .f32⟩
  | 57 => ⟨S19200, .f32⟩
  | 58 => ⟨S19200, .f32⟩
  | 59 => ⟨S19200, .f32⟩
  | 60 => ⟨S_, .f32⟩
  | 61 => ⟨S19200, .f32⟩
  | 62 => ⟨S19200, .f32⟩
  | 63 => ⟨S19200, .f32⟩
  | 64 => ⟨S19200x1, .f32⟩
  | 65 => ⟨S19200x1, .f32⟩
  | 66 => ⟨S19200x1, .f32⟩
  | 67 => ⟨S19200x1, .f32⟩
  | 68 => ⟨S19200x4, .f32⟩
  | 69 => ⟨S2048x1, .f32⟩
  | 70 => ⟨S2048, .f32⟩
  | 71 => ⟨S2048x1, .f32⟩
  | 72 => ⟨S2048, .f32⟩
  | 73 => ⟨S2048x1, .f32⟩
  | 74 => ⟨S2048, .f32⟩
  | 75 => ⟨S2048x1, .f32⟩
  | 76 => ⟨S2048, .f32⟩
  | 77 => ⟨S_, .f32⟩
  | 78 => ⟨S2048, .f32⟩
  | 79 => ⟨S2048, .f32⟩
  | 80 => ⟨S2048, .f32⟩
  | 81 => ⟨S_, .f32⟩
  | 82 => ⟨S2048, .f32⟩
  | 83 => ⟨S2048, .f32⟩
  | 84 => ⟨S2048, .f32⟩
  | 85 => ⟨S_, .f32⟩
  | 86 => ⟨S2048, .f32⟩
  | 87 => ⟨S2048, .f32⟩
  | 88 => ⟨S2048, .f32⟩
  | 89 => ⟨S_, .f32⟩
  | 90 => ⟨S2048, .f32⟩
  | 91 => ⟨S2048, .f32⟩
  | 92 => ⟨S2048, .f32⟩
  | 93 => ⟨S2048x1, .f32⟩
  | 94 => ⟨S2048x1, .f32⟩
  | 95 => ⟨S2048x1, .f32⟩
  | 96 => ⟨S2048x1, .f32⟩
  | 97 => ⟨S2048x4, .f32⟩
  | 98 => ⟨S19200x1, .f32⟩
  | 99 => ⟨S19200, .f32⟩
  | 100 => ⟨S19200x1, .f32⟩
  | 101 => ⟨S19200, .f32⟩
  | 102 => ⟨S19200, .f32⟩
  | 103 => ⟨S19200x1, .f32⟩
  | 104 => ⟨S19200, .f32⟩
  | 105 => ⟨S19200x1, .f32⟩
  | 106 => ⟨S19200, .f32⟩
  | 107 => ⟨S19200, .f32⟩
  | 108 => ⟨S19200, .f32⟩
  | 109 => ⟨S2048x1, .f32⟩
  | 110 => ⟨S2048, .f32⟩
  | 111 => ⟨S2048x1, .f32⟩
  | 112 => ⟨S2048, .f32⟩
  | 113 => ⟨S2048, .f32⟩
  | 114 => ⟨S2048x1, .f32⟩
  | 115 => ⟨S2048, .f32⟩
  | 116 => ⟨S2048x1, .f32⟩
  | 117 => ⟨S2048, .f32⟩
  | 118 => ⟨S2048, .f32⟩
  | 119 => ⟨S2048, .f32⟩
  | 120 => ⟨S19200x2, .f32⟩
  | 121 => ⟨S19200x1x2, .f32⟩
  | 122 => ⟨S2048x2, .f32⟩
  | 123 => ⟨S1x2048x2, .f32⟩
  | 124 => ⟨S19200x2048x2, .f32⟩
  | 125 => ⟨S19200x2048x2, .f32⟩
  | 126 => ⟨S19200x2048x2, .f32⟩
  | 127 => ⟨S19200x2, .f32⟩
  | _ => ⟨S64x300x13, .f32⟩

abbrev hbmTy0_1 (i : Nat) : BufTy := match i % 128 with
  | 0 => ⟨S19200x1x2, .f32⟩
  | 1 => ⟨S2048x2, .f32⟩
  | 2 => ⟨S1x2048x2, .f32⟩
  | 3 => ⟨S19200x2048x2, .f32⟩
  | 4 => ⟨S19200x2048x2, .f32⟩
  | 5 => ⟨S19200x2048x2, .f32⟩
  | 6 => ⟨S19200x2048x2, .f32⟩
  | 7 => ⟨S_, .f32⟩
  | 8 => ⟨S_, .f32⟩
  | 9 => ⟨S19200x2048x2, .f32⟩
  | 10 => ⟨S19200x2048x2, .f32⟩
  | 11 => ⟨S19200x2048x1, .f32⟩
  | 12 => ⟨S19200x2048, .f32⟩
  | 13 => ⟨S19200x2048x1, .f32⟩
  | 14 => ⟨S19200x2048, .f32⟩
  | 15 => ⟨S19200x2048, .f32⟩
  | 16 => ⟨S19200x1, .f32⟩
  | 17 => ⟨S1x2048, .f32⟩
  | 18 => ⟨S19200x2048, .f32⟩
  | 19 => ⟨S19200x2048, .f32⟩
  | 20 => ⟨S19200x2048, .f32⟩
  | 21 => ⟨S19200x2048, .f32⟩
  | 22 => ⟨S19200x2048, .f32⟩
  | 23 => ⟨S19200x2, .f32⟩
  | 24 => ⟨S19200x1x2, .f32⟩
  | 25 => ⟨S2048x2, .f32⟩
  | 26 => ⟨S1x2048x2, .f32⟩
  | 27 => ⟨S19200x2048x2, .f32⟩
  | 28 => ⟨S19200x2048x2, .f32⟩
  | 29 => ⟨S19200x2048x2, .f32⟩
  | 30 => ⟨S19200x2, .f32⟩
  | 31 => ⟨S19200x1x2, .f32⟩
  | 32 => ⟨S2048x2, .f32⟩
  | 33 => ⟨S1x2048x2, .f32⟩
  | 34 => ⟨S19200x2048x2, .f32⟩
  | 35 => ⟨S19200x2048x2, .f32⟩
  | 36 => ⟨S19200x2048x2, .f32⟩
  | 37 => ⟨S19200x2048x2, .f32⟩
  | 38 => ⟨S_, .f32⟩
  | 39 => ⟨S_, .f32⟩
  | 40 => ⟨S19200x2048x2, .f32⟩
  | 41 => ⟨S19200x2048x2, .f32⟩
  | 42 => ⟨S19200x2048x1, .f32⟩
  | 43 => ⟨S19200x2048, .f32⟩
  | 44 => ⟨S19200x2048x1, .f32⟩
  | 45 => ⟨S19200x2048, .f32⟩
  | 46 => ⟨S19200x2048, .f32⟩
  | 47 => ⟨S19200x2048, .f32⟩
  | 48 => ⟨S19200x2048, .f32⟩
  | 49 => ⟨S19200x2048, .f32⟩
  | 50 => ⟨S19200x2048, .f32⟩
  | 51 => ⟨S_, .f32⟩
  | 52 => ⟨S19200x2048, .f32⟩
  | 53 => ⟨S19200x2048, .f32⟩
  | 54 => ⟨S_, .f32⟩
  | 55 => ⟨S19200x2048, .f32⟩
  | 56 => ⟨S19200x2048, .f32⟩
  | 57 => ⟨S19200x2048, .f32⟩
  | 58 => ⟨S_, .f32⟩
  | 59 => ⟨S19200x2048, .f32⟩
  | 60 => ⟨S19200x2048, .f32⟩
  | 61 => ⟨S19200x2048, .f32⟩
  | 62 => ⟨S64x300x2048, .f32⟩
  | 63 => ⟨S64x300x32, .f32⟩
  | _ => ⟨S64x300x13, .f32⟩

abbrev hbmTy (i : Nat) : BufTy := match i / 128 with
  | 0 => hbmTy0_0 i
  | 1 => hbmTy0_1 i
  | _ => ⟨S64x300x13, .f32⟩

abbrev bufTy : (tb : Table) → Fin (tcTables nBuf tb) → BufTy
  | .hbm, ⟨i, _⟩ => hbmTy i
  | _, _ => ⟨S64x300x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_11 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_12 : Ref sig .tc := ⟨.hbm, 135, rfl⟩
abbrev main_call0_v0 : Ref sig .tc := ⟨.hbm, 136, rfl⟩
abbrev main_call0_v1 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_cst_13 : Ref sig .tc := ⟨.hbm, 166, rfl⟩
abbrev main_call1_v0 : Ref sig .tc := ⟨.hbm, 167, rfl⟩
abbrev main_call1_v1 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_cst_14 : Ref sig .tc := ⟨.hbm, 179, rfl⟩
abbrev main_v155 : Ref sig .tc := ⟨.hbm, 180, rfl⟩
abbrev main_v156 : Ref sig .tc := ⟨.hbm, 181, rfl⟩
abbrev main_cst_15 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_cst_16 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩

abbrev nD : Nat := 1
abbrev τ : Topo := Topo.v7x

variable {F : FTy → Type} [FloatOps F]

class Facts₀ : Prop where
  shapeCasts_S64x300x13_S19200x13 : S64x300x13.ShapeCasts S19200x13
  reducesTo_S19200x13_S19200_d1 : S19200x13.ReducesTo [1] S19200
  h_S_ : 0 < S_.numel
  bcast_S_S19200 : S_.BroadcastsInDim S19200 (![] : Fin 0 → Fin S19200.rank)
  bcast_S19200_S19200x1_0 : S19200.BroadcastsInDim S19200x1 (![0] : Fin 1 → Fin S19200x1.rank)
  bcast_S19200x1_S19200x13_0_1 : S19200x1.BroadcastsInDim S19200x13 (![0, 1] : Fin 2 → Fin S19200x13.rank)
  shapeCasts_S64x300x4_S19200x4 : S64x300x4.ShapeCasts S19200x4
  shapeCasts_S64x32x4_S2048x4 : S64x32x4.ShapeCasts S2048x4
  shapeCasts_S64x32_S2048 : S64x32.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  bcast_S19200x4_S19200x1x4_0_2 : S19200x4.BroadcastsInDim S19200x1x4 (![0, 2] : Fin 2 → Fin S19200x1x4.rank)
  bcast_S2048x4_S1x2048x4_1_2 : S2048x4.BroadcastsInDim S1x2048x4 (![1, 2] : Fin 2 → Fin S1x2048x4.rank)
  bcast_S19200x1x4_S19200x2048x4_0_1_2 : S19200x1x4.BroadcastsInDim S19200x2048x4 (![0, 1, 2] : Fin 3 → Fin S19200x2048x4.rank)
  bcast_S1x2048x4_S19200x2048x4_0_1_2 : S1x2048x4.BroadcastsInDim S19200x2048x4 (![0, 1, 2] : Fin 3 → Fin S19200x2048x4.rank)
  reducesTo_S19200x2048x4_S19200x2048_d2 : S19200x2048x4.ReducesTo [2] S19200x2048
  slices_S19200x4_S19200x1_0_0 : S19200x4.Slices ![0, 0] S19200x1
  shapeCasts_S19200x1_S19200 : S19200x1.ShapeCasts S19200
  slices_S19200x4_S19200x1_0_1 : S19200x4.Slices ![0, 1] S19200x1
  slices_S19200x4_S19200x1_0_2 : S19200x4.Slices ![0, 2] S19200x1
  slices_S19200x4_S19200x1_0_3 : S19200x4.Slices ![0, 3] S19200x1
  concatenates_S19200x1_S19200x1_S19200x1_S19200x1_S19200x4_d1 : Shape.Concatenates [S19200x1, S19200x1, S19200x1, S19200x1] S19200x4 1
  slices_S2048x4_S2048x1_0_0 : S2048x4.Slices ![0, 0] S2048x1
  shapeCasts_S2048x1_S2048 : S2048x1.ShapeCasts S2048
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1
  concatenates_S2048x1_S2048x1_S2048x1_S2048x1_S2048x4_d1 : Shape.Concatenates [S2048x1, S2048x1, S2048x1, S2048x1] S2048x4 1
  slices_S19200x4_S19200x2_0_0 : S19200x4.Slices ![0, 0] S19200x2
  bcast_S19200x2_S19200x1x2_0_2 : S19200x2.BroadcastsInDim S19200x1x2 (![0, 2] : Fin 2 → Fin S19200x1x2.rank)
  slices_S2048x4_S2048x2_0_0 : S2048x4.Slices ![0, 0] S2048x2
  bcast_S2048x2_S1x2048x2_1_2 : S2048x2.BroadcastsInDim S1x2048x2 (![1, 2] : Fin 2 → Fin S1x2048x2.rank)
  bcast_S19200x1x2_S19200x2048x2_0_1_2 : S19200x1x2.BroadcastsInDim S19200x2048x2 (![0, 1, 2] : Fin 3 → Fin S19200x2048x2.rank)
  bcast_S1x2048x2_S19200x2048x2_0_1_2 : S1x2048x2.BroadcastsInDim S19200x2048x2 (![0, 1, 2] : Fin 3 → Fin S19200x2048x2.rank)
  slices_S19200x4_S19200x2_0_2 : S19200x4.Slices ![0, 2] S19200x2
  slices_S2048x4_S2048x2_0_2 : S2048x4.Slices ![0, 2] S2048x2
  bcast_S_S19200x2048x2 : S_.BroadcastsInDim S19200x2048x2 (![] : Fin 0 → Fin S19200x2048x2.rank)
  slices_S19200x2048x2_S19200x2048x1_0_0_0 : S19200x2048x2.Slices ![0, 0, 0] S19200x2048x1
  shapeCasts_S19200x2048x1_S19200x2048 : S19200x2048x1.ShapeCasts S19200x2048
  slices_S19200x2048x2_S19200x2048x1_0_0_1 : S19200x2048x2.Slices ![0, 0, 1] S19200x2048x1
  bcast_S2048_S1x2048_1 : S2048.BroadcastsInDim S1x2048 (![1] : Fin 1 → Fin S1x2048.rank)
  bcast_S19200x1_S19200x2048_0_1 : S19200x1.BroadcastsInDim S19200x2048 (![0, 1] : Fin 2 → Fin S19200x2048.rank)
  bcast_S1x2048_S19200x2048_0_1 : S1x2048.BroadcastsInDim S19200x2048 (![0, 1] : Fin 2 → Fin S19200x2048.rank)
  bcast_S_S19200x2048 : S_.BroadcastsInDim S19200x2048 (![] : Fin 0 → Fin S19200x2048.rank)
  shapeCasts_S19200x2048_S64x300x2048 : S19200x2048.ShapeCasts S64x300x2048
  slices_S64x300x2048_S64x300x32_0_0_0 : S64x300x2048.Slices ![0, 0, 0] S64x300x32
  gather_S19200x13_S2048x1_S19200x2048_0_1_n_n_1_1_192001_wf : GatherDims.WF S19200x13 S2048x1 S19200x2048 [0] [1] [] [1] [] 1 ![19200, 1]

variable [Facts₀]

def gather_S19200x13_S2048x1_S19200x2048_0_1_n_n_1_1_192001 : GatherDims S19200x13 S2048x1 S19200x2048 where
  offsetDims := [0]
  collapsedSliceDims := [1]
  operandBatchingDims := []
  startIndicesBatchingDims := []
  startIndexMap := [1]
  indexVectorDim := 1
  sliceSizes := ![19200, 1]
  wf := gather_S19200x13_S2048x1_S19200x2048_0_1_n_n_1_1_192001_wf

class Facts : Prop extends Facts₀ where

variable [Facts]
-- ==== Proof.Spec.lean ====
/-
  The cost matrix both programs compute, as ONE function of the four argument arrays, entry by entry, on the extended reals.

  Entry (b, q, t) pairs prediction row (b, q) with target t OF BATCH 0 (the reference builds the cost against all
  64·32 flattened targets and keeps the first 32 columns, which are batch 0's):
    cost = 1 · (−softmax(logits[b, q, :])[class t]) + 5 · ‖box[b, q, :] − tgt[0, t, :]‖₁ + 2 · (−GIoU(box[b, q, :], tgt[0, t, :]))
  with boxes given as (cx, cy, w, h). The float words are kept as the words both programs print; the class of target t is
  the word tgt_ids[0, t] read the way a gather reads a start index (a negative word wrapped by 13 first, then clamped
  into [0, 12]).
-/
import Idealize.ShloMosaic.PureOps.Ideal
import Idealize.ShloMosaic.Lib.ValueIdx

noncomputable section

open scoped BigOperators

namespace Cert.Spec

open Idealize.ShloMosaic Idealize.ShloMosaic.ValueIdx

/-- The words 0.5, 1, 2, 5, 0 and −∞ as extended reals. -/
abbrev half : EReal := Ideal.ofBits .f32 0x3F000000#32
abbrev one : EReal := Ideal.ofBits .f32 0x3F800000#32
abbrev two : EReal := Ideal.ofBits .f32 0x40000000#32
abbrev five : EReal := Ideal.ofBits .f32 0x40A00000#32
abbrev zero : EReal := Ideal.ofBits .f32 0x00000000#32
abbrev ninf : EReal := Ideal.ofBits .f32 0xFF800000#32

/-! ## Softmax of a row of 13 logits -/

/-- The row's maximum, folded from −∞. -/
def rowMax (x : Fin 13 → EReal) : EReal := (Finset.univ : Finset (Fin 13)).fold max ninf x
/-- exp (x k − max x). -/
def expShift (x : Fin 13 → EReal) (k : Fin 13) : EReal := Ideal.exp (x k - rowMax x)
/-- softmax(x)[k]. -/
def softmax (x : Fin 13 → EReal) (k : Fin 13) : EReal := Ideal.div (expShift x k) (∑ j : Fin 13, expShift x j)

/-! ## L1 distance of two boxes -/

/-- |a| as the ideal instance reads it. -/
def absE (a : EReal) : EReal := max a (-a)
/-- ‖p − g‖₁ over the four box coordinates. -/
def l1 (p g : Fin 4 → EReal) : EReal := ∑ a : Fin 4, absE (p a - g a)

/-! ## Generalized IoU of two (cx, cy, w, h) boxes -/

/-- The corners: low and high end on each of the two axes. -/
def lo0 (b : Fin 4 → EReal) : EReal := b 0 - half * b 2
def lo1 (b : Fin 4 → EReal) : EReal := b 1 - half * b 3
def hi0 (b : Fin 4 → EReal) : EReal := b 0 + half * b 2
def hi1 (b : Fin 4 → EReal) : EReal := b 1 + half * b 3
/-- A box's area. -/
def area (b : Fin 4 → EReal) : EReal := (hi0 b - lo0 b) * (hi1 b - lo1 b)
/-- The intersection's area (each side clipped at 0). -/
def inter (p g : Fin 4 → EReal) : EReal :=
  max (min (hi0 p) (hi0 g) - max (lo0 p) (lo0 g)) zero * max (min (hi1 p) (hi1 g) - max (lo1 p) (lo1 g)) zero
/-- The union's area. -/
def union (p g : Fin 4 → EReal) : EReal := area p + area g - inter p g
/-- The smallest enclosing box's area. -/
def enclose (p g : Fin 4 → EReal) : EReal :=
  max (max (hi0 p) (hi0 g) - min (lo0 p) (lo0 g)) zero * max (max (hi1 p) (hi1 g) - min (lo1 p) (lo1 g)) zero
/-- GIoU = IoU − (enclose − union) / enclose. -/
def giou (p g : Fin 4 → EReal) : EReal :=
  Ideal.div (inter p g) (union p g) - Ideal.div (enclose p g - union p g) (enclose p g)

/-! ## One entry of the cost matrix -/

/-- The matching cost of a prediction (logits x, box p) against a target (box g, class k). -/
def cost (x : Fin 13 → EReal) (p g : Fin 4 → EReal) (k : Fin 13) : EReal :=
  one * (-(softmax x k)) + five * l1 p g + two * (-(giou p g))

/-! ## The class a target's id word selects -/

/-- numpy's wrap of a negative index by the axis length 13. -/
def wrapWord (w : BitVec 32) : BitVec 32 := Scalar.select (IntOp.cmpi .slt w 0#32) (IntOp.addi w 13#32) w
/-- The class the gather reads: the wrapped word as a signed integer, clamped into [0, 12]. -/
def clsOf (w : BitVec 32) : Fin 13 := ⟨min (wrapWord w).toInt.toNat 12, by omega⟩

/-! ## The whole result -/

/-- The result array: entry (b, q, t) is the cost of prediction (b, q) against target t of batch 0. -/
def G (x0 : (⟨3, ![64, 300, 13]⟩ : Shape).Idx → EReal) (x1 : (⟨3, ![64, 300, 4]⟩ : Shape).Idx → EReal)
    (x2 : (⟨3, ![64, 32, 4]⟩ : Shape).Idx → EReal) (ids : (⟨2, ![64, 32]⟩ : Shape).Idx → BitVec 32)
    (i : (⟨3, ![64, 300, 32]⟩ : Shape).Idx) : EReal :=
  cost (fun k => x0 (ix3 (i 0) (i 1) k)) (fun a => x1 (ix3 (i 0) (i 1) a)) (fun a => x2 (ix3 (0 : Fin 64) (i 2) a))
    (clsOf (ids (ix2 (0 : Fin 64) (i 2))))

end Cert.Spec

end
-- ==== Proof.PreIds.lean ====
/-
  The precondition read back at the class ids: when the printed predicate of the four argument arrays is all ones,
  every id word is, read signed, in [0, 13). From that range: the class a word selects is the word's value, and a
  word equals the constant k exactly when it selects class k.
-/
import proofs.«421090_j12876311953748_3_alg».proof.Pre_finite_inputs
import proofs.«421090_j12876311953748_3_alg».proof.Proof.Spec
import Idealize.ShloMosaic.Lib.ReduceAll
import Idealize.ShloMosaic.Lib.StableHlo.Predicate
import Idealize.ShloMosaic.Lib.ValueIdx

noncomputable section

namespace Cert.PreIds

open Idealize.ShloMosaic

/-- The result shape of a reduction over all axes has one index. -/
instance subsingleton_scalarIdx : Subsingleton Cert.Pre_finite_inputs.S_.Idx :=
  ⟨fun _ _ => funext fun d => d.elim0⟩

/-- A signed "0 ≤ w" that came out 1 says the word's signed value is non-negative. -/
theorem sge_zero_toInt {w : BitVec 32} (h : IntOp.cmpi .sge w 0#32 = 1#1) : 0 ≤ w.toInt := by
  unfold IntOp.cmpi at h
  have hb := (StableHlo.Predicate.ofBool_eq_one_iff _).1 h
  have : (0#32 : BitVec 32).toInt ≤ w.toInt := by simpa [BitVec.sle] using hb
  simpa using this

/-- A signed "w < 13" that came out 1 says the word's signed value is below 13. -/
theorem slt_thirteen_toInt {w : BitVec 32} (h : IntOp.cmpi .slt w 13#32 = 1#1) : w.toInt < 13 := by
  unfold IntOp.cmpi at h
  have hb := (StableHlo.Predicate.ofBool_eq_one_iff _).1 h
  have h13 : (13#32 : BitVec 32).toInt = 13 := by decide
  have : w.toInt < (13#32 : BitVec 32).toInt := by simpa [BitVec.slt] using hb
  rwa [h13] at this

/-- THE PRECONDITION AT THE IDS: its last conjunct is the all-reduce of (0 ≤ id) ∧ (id < 13), both signed. -/
theorem ids_in_range {F : FTy → Type} [FloatOps F] [Cert.Pre_finite_inputs.Facts]
    (a0 : FVec F Cert.Pre_finite_inputs.S64x300x13 .f32) (a1 : FVec F Cert.Pre_finite_inputs.S64x300x4 .f32)
    (a2 : FVec F Cert.Pre_finite_inputs.S64x32x4 .f32) (ids : IVec Cert.Pre_finite_inputs.S64x32 32)
    (h : Cert.Pre_finite_inputs.fn (F := F) a0 a1 a2 ids = fun _ => 1#1) :
    ∀ i : Cert.Pre_finite_inputs.S64x32.Idx, 0 ≤ (ids i).toInt ∧ (ids i).toInt < 13 := by
  intro i
  have h0 := congrFun h ValueIdx.ix0
  dsimp only [Cert.Pre_finite_inputs.fn, Cert.Pre_finite_inputs.fn_part1] at h0
  -- the outer conjunction at the one result index: keep the ids' half
  have hall := (IntOp.andi_eq_one.1 h0).2
  -- the reduce by and over both axes is 1: every element of its operand is
  have hi := Host.reduce_andi_all _ _ _ _ _ hall i
  obtain ⟨hge, hlt⟩ := IntOp.andi_eq_one.1 hi
  -- the two broadcast constants read at i
  have e0 : broadcastInDim Cert.Pre_finite_inputs.S64x32 ![] Cert.Pre_finite_inputs.Facts.bcast_S_S64x32
      (constantI Cert.Pre_finite_inputs.S_ 32 0#32) i = 0#32 :=
    StableHlo.Predicate.bcast_scalar _ Cert.Pre_finite_inputs.Facts.h_S_ _ i
  have e13 : broadcastInDim Cert.Pre_finite_inputs.S64x32 ![] Cert.Pre_finite_inputs.Facts.bcast_S_S64x32
      (constantI Cert.Pre_finite_inputs.S_ 32 13#32) i = 13#32 :=
    StableHlo.Predicate.bcast_scalar _ Cert.Pre_finite_inputs.Facts.h_S_ _ i
  have hge' : IntOp.cmpi .sge (ids i) 0#32 = 1#1 := by
    have := hge; unfold cmpi at this; rwa [e0] at this
  have hlt' : IntOp.cmpi .slt (ids i) 13#32 = 1#1 := by
    have := hlt; unfold cmpi at this; rwa [e13] at this
  exact ⟨sge_zero_toInt hge', slt_thirteen_toInt hlt'⟩

/-! ## The class a word in range selects -/

/-- A word whose signed value is non-negative is not wrapped: the signed compare against 0 is false. -/
theorem wrapWord_of_nonneg (w : BitVec 32) (h0 : 0 ≤ w.toInt) : Cert.Spec.wrapWord w = w := by
  unfold Cert.Spec.wrapWord IntOp.cmpi
  have hs : w.slt 0#32 = false := by
    simp only [BitVec.slt, BitVec.toInt_zero, decide_eq_false_iff_not, not_lt]; exact h0
  rw [hs]
  rfl

/-- A word whose signed value is non-negative reads the same signed and unsigned. -/
theorem toInt_eq_toNat_of_nonneg (w : BitVec 32) (h0 : 0 ≤ w.toInt) : w.toInt = w.toNat := by
  have hlt := w.isLt
  rw [BitVec.toInt_eq_toNat_cond] at h0 ⊢
  split at h0 <;> rename_i hc
  · rw [if_pos hc]
  · exfalso; omega

/-- In range, the class is the word's value: no wrap, and the clamp at 12 does nothing below 13. -/
theorem clsOf_of_range (w : BitVec 32) (h0 : 0 ≤ w.toInt) (h1 : w.toInt < 13) :
    (Cert.Spec.clsOf w).val = w.toNat ∧ w.toNat < 13 := by
  have e := toInt_eq_toNat_of_nonneg w h0
  have hn : w.toNat < 13 := by omega
  refine ⟨?_, hn⟩
  show min (Cert.Spec.wrapWord w).toInt.toNat 12 = w.toNat
  rw [wrapWord_of_nonneg w h0, e, Int.toNat_natCast]
  omega

/-- In range, a word is the constant k exactly when it selects class k. -/
theorem eq_iff_cls (w : BitVec 32) (h0 : 0 ≤ w.toInt) (h1 : w.toInt < 13) (k : Fin 13) :
    (w = BitVec.ofNat 32 k.val) ↔ (Cert.Spec.clsOf w = k) := by
  obtain ⟨hv, hn⟩ := clsOf_of_range w h0 h1
  have hk := k.isLt
  constructor
  · intro e
    apply Fin.ext
    rw [hv, e, BitVec.toNat_ofNat]
    omega
  · intro e
    apply BitVec.eq_of_toNat_eq
    rw [BitVec.toNat_ofNat, ← hv, e]
    omega

end Cert.PreIds

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.KernelPay.lean ====
/-
  The kernel body's arithmetic, read one entry at a time on the extended reals.

  The body works on a block of 2400 prediction rows: logits x2 [2400, 13], boxes x3 [2400, 4], against the
  32 targets of batch 0 given as columns: boxes x1 [4, 32] and a 0/1 class-indicator matrix x0 [13, 32].
  Its value at (row l, target t) — before the final re-laying of the [2400, 32] tile as [600, 128] — is the cost
  of Spec, with the class term written as the product of the row's softmax with column t of the indicator matrix.
-/
import proofs.«421090_j12876311953748_3_alg».proof.Proof.Gen.KernelIdeal.Skeleton
import proofs.«421090_j12876311953748_3_alg».proof.Proof.Spec
import Idealize.ShloMosaic.Lib.ValueIdx
import Idealize.ShloMosaic.Lib.Pipeline.Value
import Idealize.ShloMosaic.PureOps.Ideal.Laws
import proofs.«421090_j12876311953748_3_alg».proof.Proof.LibPlainMatmul

noncomputable section

open scoped BigOperators

namespace Cert.KernelSide

open Idealize.ShloMosaic Idealize.ShloMosaic.ValueIdx Cert.KernelIdeal Cert.KernelIdeal.Gen

/-! ## Layout operations of the body at an entry -/

section Layout
variable {α : Type}

/-- A column [2400, 1] broadcast along 32 lanes reads the column's row. -/
theorem bcastCol32 (v : S2400x1.Idx → α) (h : S2400x1.Broadcasts S2400x32) (l : Fin 2400) (t : Fin 32) :
    broadcastTo S2400x32 v h (ix2 l t) = v (ix2 l (0 : Fin 1)) :=
  broadcastTo_apply v h (ix2 l t) (ix2 l (0 : Fin 1)) (fun a => by match a with | ⟨0, _⟩ => rfl | ⟨1, _⟩ => rfl)

/-- A row [1, 32] broadcast down 2400 rows reads the row's lane. -/
theorem bcastRow32 (v : S1x32.Idx → α) (h : S1x32.Broadcasts S2400x32) (l : Fin 2400) (t : Fin 32) :
    broadcastTo S2400x32 v h (ix2 l t) = v (ix2 (0 : Fin 1) t) :=
  broadcastTo_apply v h (ix2 l t) (ix2 (0 : Fin 1) t) (fun a => by match a with | ⟨0, _⟩ => rfl | ⟨1, _⟩ => rfl)

/-- A column [2400, 1] broadcast along the 13 classes reads the column's row. -/
theorem bcastCol13 (v : S2400x1.Idx → α) (h : S2400x1.Broadcasts S2400x13) (l : Fin 2400) (k : Fin 13) :
    broadcastTo S2400x13 v h (ix2 l k) = v (ix2 l (0 : Fin 1)) :=
  broadcastTo_apply v h (ix2 l k) (ix2 l (0 : Fin 1)) (fun a => by match a with | ⟨0, _⟩ => rfl | ⟨1, _⟩ => rfl)

/-- A vector [2400] viewed as a column [2400, 1]. -/
theorem colOfVec (v : S2400.Idx → α) (h : S2400.ShapeCasts S2400x1) (l : Fin 2400) :
    shapeCast S2400x1 v h (ix2 l (0 : Fin 1)) = v (ix1 l) :=
  shapeCast_apply v h (ix2 l (0 : Fin 1)) (ix1 l) (by
    rw [Shape.rowMajor_val_one, Shape.rowMajor_val_two]; show l.val = l.val * 1 + 0; omega)

/-- Column o of the box block, as a [2400, 1] slice. -/
theorem boxCol (v : S2400x4.Idx → α) (o : Nat) (ho : o < 4) (h : S2400x4.Slices ![0, o] S2400x1) (l : Fin 2400) :
    extractStridedSlice S2400x1 ![0, o] v h (ix2 l (0 : Fin 1)) = v (ix2 l (⟨o, ho⟩ : Fin 4)) :=
  extractStridedSlice_apply ![0, o] v h (ix2 l (0 : Fin 1)) (ix2 l (⟨o, ho⟩ : Fin 4)) (fun b => by
    match b with
    | ⟨0, _⟩ => show l.val = 0 + l.val; omega
    | ⟨1, _⟩ => show o = o + 0; omega)

/-- Row o of the target block, as a [1, 32] slice. -/
theorem tgtRow (v : S4x32.Idx → α) (o : Nat) (ho : o < 4) (h : S4x32.Slices ![o, 0] S1x32) (t : Fin 32) :
    extractStridedSlice S1x32 ![o, 0] v h (ix2 (0 : Fin 1) t) = v (ix2 (⟨o, ho⟩ : Fin 4) t) :=
  extractStridedSlice_apply ![o, 0] v h (ix2 (0 : Fin 1) t) (ix2 (⟨o, ho⟩ : Fin 4) t) (fun b => by
    match b with
    | ⟨0, _⟩ => show o = o + 0; omega
    | ⟨1, _⟩ => show t.val = 0 + t.val; omega)

end Layout

/-! ## The pointwise operations at an entry, on the extended reals -/

section Pointwise
variable {s : Shape} {φ : FTy}

/-- |a| at an entry. -/
theorem absf_at (a : FVec Ideal s φ) (i : s.Idx) : absf a i = Spec.absE (a i) := rfl
/-- exp at an entry. -/
theorem exp_at (a : FVec Ideal s φ) (i : s.Idx) : exp a i = Ideal.exp (a i) := rfl
/-- A splat scalar word at an entry. -/
theorem splat_at (w : BitVec 32) (i : s.Idx) : broadcast s (Scalar.ofBits (F := Ideal) .f32 w) i = Ideal.ofBits .f32 w := rfl

end Pointwise

/-! ## The body's named values at an entry -/

section Body

/-- The four columns of the box block. -/
theorem boxcol0 (x3 : Vec Ideal S2400x4 .f32) (l : Fin 2400) : k0_pay4 (F := Ideal) x3 (ix2 l (0 : Fin 1)) = x3 (ix2 l 0) := by
  unfold k0_pay4 k0_pay3
  exact (boxCol _ 0 (by decide) _ l).trans (congrFun (shapeCast_self x3 _) _)
theorem boxcol1 (x3 : Vec Ideal S2400x4 .f32) (l : Fin 2400) : k0_pay5 (F := Ideal) x3 (ix2 l (0 : Fin 1)) = x3 (ix2 l 1) := by
  unfold k0_pay5 k0_pay3
  exact (boxCol _ 1 (by decide) _ l).trans (congrFun (shapeCast_self x3 _) _)
theorem boxcol2 (x3 : Vec Ideal S2400x4 .f32) (l : Fin 2400) : k0_pay6 (F := Ideal) x3 (ix2 l (0 : Fin 1)) = x3 (ix2 l 2) := by
  unfold k0_pay6 k0_pay3
  exact (boxCol _ 2 (by decide) _ l).trans (congrFun (shapeCast_self x3 _) _)
theorem boxcol3 (x3 : Vec Ideal S2400x4 .f32) (l : Fin 2400) : k0_pay7 (F := Ideal) x3 (ix2 l (0 : Fin 1)) = x3 (ix2 l 3) := by
  unfold k0_pay7 k0_pay3
  exact (boxCol _ 3 (by decide) _ l).trans (congrFun (shapeCast_self x3 _) _)

/-- The four rows of the target block. -/
theorem tgtrow0 (x1 : Vec Ideal S4x32 .f32) (t : Fin 32) : k0_pay13 (F := Ideal) x1 (ix2 (0 : Fin 1) t) = x1 (ix2 0 t) := by
  unfold k0_pay13 k0_pay12
  exact (tgtRow _ 0 (by decide) _ t).trans (congrFun (shapeCast_self x1 _) _)
theorem tgtrow1 (x1 : Vec Ideal S4x32 .f32) (t : Fin 32) : k0_pay14 (F := Ideal) x1 (ix2 (0 : Fin 1) t) = x1 (ix2 1 t) := by
  unfold k0_pay14 k0_pay12
  exact (tgtRow _ 1 (by decide) _ t).trans (congrFun (shapeCast_self x1 _) _)
theorem tgtrow2 (x1 : Vec Ideal S4x32 .f32) (t : Fin 32) : k0_pay15 (F := Ideal) x1 (ix2 (0 : Fin 1) t) = x1 (ix2 2 t) := by
  unfold k0_pay15 k0_pay12
  exact (tgtRow _ 2 (by decide) _ t).trans (congrFun (shapeCast_self x1 _) _)
theorem tgtrow3 (x1 : Vec Ideal S4x32 .f32) (t : Fin 32) : k0_pay16 (F := Ideal) x1 (ix2 (0 : Fin 1) t) = x1 (ix2 3 t) := by
  unfold k0_pay16 k0_pay12
  exact (tgtRow _ 3 (by decide) _ t).trans (congrFun (shapeCast_self x1 _) _)

/-- The prediction's corners: row l of the box block read as (cx, cy, w, h). -/
theorem boxlo0 (x3 : Vec Ideal S2400x4 .f32) (l : Fin 2400) :
    k0_pay8 (F := Ideal) x3 (ix2 l (0 : Fin 1)) = Spec.lo0 (fun a => x3 (ix2 l a)) := by
  simp only [k0_pay8, subf_apply, mulf_apply, splat_at, boxcol0, boxcol2]; rfl
theorem boxlo1 (x3 : Vec Ideal S2400x4 .f32) (l : Fin 2400) :
    k0_pay9 (F := Ideal) x3 (ix2 l (0 : Fin 1)) = Spec.lo1 (fun a => x3 (ix2 l a)) := by
  simp only [k0_pay9, subf_apply, mulf_apply, splat_at, boxcol1, boxcol3]; rfl
theorem boxhi0 (x3 : Vec Ideal S2400x4 .f32) (l : Fin 2400) :
    k0_pay10 (F := Ideal) x3 (ix2 l (0 : Fin 1)) = Spec.hi0 (fun a => x3 (ix2 l a)) := by
  simp only [k0_pay10, addf_apply, mulf_apply, splat_at, boxcol0, boxcol2]; rfl
theorem boxhi1 (x3 : Vec Ideal S2400x4 .f32) (l : Fin 2400) :
    k0_pay11 (F := Ideal) x3 (ix2 l (0 : Fin 1)) = Spec.hi1 (fun a => x3 (ix2 l a)) := by
  simp only [k0_pay11, addf_apply, mulf_apply, splat_at, boxcol1, boxcol3]; rfl

/-- The target's corners: column t of the target block read as (cx, cy, w, h). -/
theorem tgtlo0 (x1 : Vec Ideal S4x32 .f32) (t : Fin 32) :
    k0_pay17 (F := Ideal) (k0_pay13 x1) (k0_pay15 x1) (ix2 (0 : Fin 1) t) = Spec.lo0 (fun a => x1 (ix2 a t)) := by
  simp only [k0_pay17, subf_apply, mulf_apply, splat_at, tgtrow0, tgtrow2]; rfl
theorem tgtlo1 (x1 : Vec Ideal S4x32 .f32) (t : Fin 32) :
    k0_pay18 (F := Ideal) (k0_pay14 x1) (k0_pay16 x1) (ix2 (0 : Fin 1) t) = Spec.lo1 (fun a => x1 (ix2 a t)) := by
  simp only [k0_pay18, subf_apply, mulf_apply, splat_at, tgtrow1, tgtrow3]; rfl
theorem tgthi0 (x1 : Vec Ideal S4x32 .f32) (t : Fin 32) :
    k0_pay19 (F := Ideal) (k0_pay13 x1) (k0_pay15 x1) (ix2 (0 : Fin 1) t) = Spec.hi0 (fun a => x1 (ix2 a t)) := by
  simp only [k0_pay19, addf_apply, mulf_apply, splat_at, tgtrow0, tgtrow2]; rfl
theorem tgthi1 (x1 : Vec Ideal S4x32 .f32) (t : Fin 32) :
    k0_pay20 (F := Ideal) (k0_pay14 x1) (k0_pay16 x1) (ix2 (0 : Fin 1) t) = Spec.hi1 (fun a => x1 (ix2 a t)) := by
  simp only [k0_pay20, addf_apply, mulf_apply, splat_at, tgtrow1, tgtrow3]; rfl

/-- The intersection's area at (l, t). -/
theorem inter_at (x1 : Vec Ideal S4x32 .f32) (x3 : Vec Ideal S2400x4 .f32) (l : Fin 2400) (t : Fin 32) :
    k0_pay22 (F := Ideal) (k0_pay8 x3) (k0_pay9 x3) (k0_pay10 x3) (k0_pay11 x3) (k0_pay13 x1) (k0_pay14 x1) (k0_pay15 x1) (k0_pay16 x1) (ix2 l t)
      = Spec.inter (fun a => x3 (ix2 l a)) (fun a => x1 (ix2 a t)) := by
  simp only [k0_pay22, mulf_apply, maximumf_apply, minimumf_apply, subf_apply, splat_at, bcastCol32, bcastRow32,
    boxlo0, boxlo1, boxhi0, boxhi1, tgtlo0, tgtlo1, tgthi0, tgthi1]
  rfl

/-- Four terms summed left to right are the sum over the four coordinates. -/
theorem sum4 (f : Fin 4 → EReal) : f 0 + f 1 + f 2 + f 3 = ∑ a : Fin 4, f a := by
  rw [Fin.sum_univ_four]

/-- The running total after the L1 term: the class term plus 5 · ‖box − target‖₁ at (l, t). -/
theorem l1_at (v17 : FVec Ideal S2400x32 .f32) (x1 : Vec Ideal S4x32 .f32) (x3 : Vec Ideal S2400x4 .f32) (l : Fin 2400) (t : Fin 32) :
    k0_pay21 (F := Ideal) v17 (k0_pay4 x3) (k0_pay5 x3) (k0_pay6 x3) (k0_pay7 x3) (k0_pay13 x1) (k0_pay14 x1) (k0_pay15 x1) (k0_pay16 x1) (ix2 l t)
      = v17 (ix2 l t) + Spec.five * Spec.l1 (fun a => x3 (ix2 l a)) (fun a => x1 (ix2 a t)) := by
  simp only [k0_pay21, addf_apply, mulf_apply, subf_apply, absf_at, splat_at, bcastCol32, bcastRow32,
    boxcol0, boxcol1, boxcol2, boxcol3, tgtrow0, tgtrow1, tgtrow2, tgtrow3]
  unfold Spec.l1
  rw [← sum4]

end Body

/-! ## The class term: softmax of the row times the indicator column -/

section ClassTerm

/-- The kernel's contraction read at an entry: its dimension numbers are the plain [2400, 13] × [13, 32] product's. -/
theorem dot_apply (prec : Option ContractPrecision) (a : FVec Ideal S2400x13 .f32) (b : FVec Ideal S13x32 .f32) (l : Fin 2400) (t : Fin 32) :
    matmul dot_S2400x13_S13x32_S2400x32_1_0_0_1_n_n prec a b (constant S2400x32 .f32 0x00000000#32) (ix2 l t)
      = ∑ k : Fin 13, a (ix2 l k) * b (ix2 k t) :=
  Cert.PlainMatmul.apply prec a b l t

/-- The index a reduction over the class axis reads: row l, class k. -/
theorem lift_row (h : S2400x13.Reduces [1] S2400) (l : Fin 2400) (k : Fin 13) : h.lift (ix1 l) k = ix2 l k :=
  funext fun a => Fin.ext (by
    match a with
    | ⟨0, _⟩ => rfl
    | ⟨1, _⟩ => rfl)

/-- Row l's maximum, as the body folds it from −∞. -/
theorem rowmax_at (x2 : Vec Ideal S2400x13 .f32) (h : S2400x13.Reduces [1] S2400) (l : Fin 2400) :
    reduceFold h (FloatOps.maximumf (F := Ideal) (φ := .f32)) (FloatOps.ofBits .f32 0xFF800000#32) x2 (ix1 l)
      = Spec.rowMax (fun k => x2 (ix2 l k)) := by
  refine (Ideal.multiReduction_maximumf_single (φ := .f32) x2 0xFF800000#32 h (.inl rfl) rfl (ix1 l)).trans ?_
  unfold Spec.rowMax
  congr 1
  funext k
  exact congrArg x2 (lift_row h l k)

/-- Row l's sum of a [2400, 13] array. -/
theorem rowsum_at (e : FVec Ideal S2400x13 .f32) (h : S2400x13.Reduces [1] S2400) (l : Fin 2400) :
    FloatOps.reduceAdd (F := Ideal) [1] h e (ix1 l) = ∑ k : Fin 13, e (ix2 l k) := by
  refine (Ideal.multiReduction_add_single (φ := .f32) e 0x00000000#32 h (.inl rfl) rfl (ix1 l)).trans ?_
  exact Finset.sum_congr rfl fun k _ => congrArg e (lift_row h l k)

/-- The class term at (l, t): 1 · (0 − Σ_k softmax(row l)[k] · x0[k, t]). -/
theorem class_at (x0 : Vec Ideal S13x32 .f32) (x2 : Vec Ideal S2400x13 .f32) (l : Fin 2400) (t : Fin 32) :
    k0_pay2 (F := Ideal) x2 x0 (ix2 l t)
      = Spec.one * (Spec.zero - ∑ k : Fin 13, Spec.softmax (fun j => x2 (ix2 l j)) k * x0 (ix2 k t)) := by
  unfold k0_pay2
  simp only [mulf_apply, subf_apply, splat_at]
  rw [dot_apply]
  refine congrArg (fun z => Spec.one * (Spec.zero - z)) (Finset.sum_congr rfl fun k _ => ?_)
  refine congrArg₂ (· * ·) ?_ (congrFun (shapeCast_self x0 _) _)
  simp only [multiReduction, divf_apply, exp_at, subf_apply, bcastCol13, colOfVec, shapeCast_self, rowmax_at]
  rw [rowsum_at]
  simp only [exp_at, subf_apply, bcastCol13, colOfVec, rowmax_at]
  rfl

end ClassTerm

/-! ## The stored tile -/

section Tile

/-- The [2400, 32] tile of costs re-laid as [600, 128]: entry (ρ, λ) is the cost at row l and target t whenever
    (l, t) and (ρ, λ) have the same row-major position. -/
theorem tile_at (x0 : Vec Ideal S13x32 .f32) (x1 : Vec Ideal S4x32 .f32) (x2 : Vec Ideal S2400x13 .f32) (x3 : Vec Ideal S2400x4 .f32)
    (l : Fin 2400) (t : Fin 32) (r : Fin 600) (c : Fin 128) (h : l.val * 32 + t.val = r.val * 128 + c.val) :
    k0_pay1 (F := Ideal) (k0_pay8 x3) (k0_pay9 x3) (k0_pay10 x3) (k0_pay11 x3)
        (k0_pay17 (k0_pay13 x1) (k0_pay15 x1)) (k0_pay18 (k0_pay14 x1) (k0_pay16 x1))
        (k0_pay19 (k0_pay13 x1) (k0_pay15 x1)) (k0_pay20 (k0_pay14 x1) (k0_pay16 x1))
        (k0_pay21 (k0_pay2 x2 x0) (k0_pay4 x3) (k0_pay5 x3) (k0_pay6 x3) (k0_pay7 x3) (k0_pay13 x1) (k0_pay14 x1) (k0_pay15 x1) (k0_pay16 x1))
        (k0_pay22 (k0_pay8 x3) (k0_pay9 x3) (k0_pay10 x3) (k0_pay11 x3) (k0_pay13 x1) (k0_pay14 x1) (k0_pay15 x1) (k0_pay16 x1))
        (ix2 r c)
      = Spec.one * (Spec.zero - ∑ k : Fin 13, Spec.softmax (fun j => x2 (ix2 l j)) k * x0 (ix2 k t))
          + Spec.five * Spec.l1 (fun a => x3 (ix2 l a)) (fun a => x1 (ix2 a t))
          + Spec.two * (Spec.zero - Spec.giou (fun a => x3 (ix2 l a)) (fun a => x1 (ix2 a t))) := by
  unfold k0_pay1
  refine (shapeCast_apply _ _ (ix2 r c) (ix2 l t) (by
    rw [Shape.rowMajor_val_two, Shape.rowMajor_val_two]; exact h)).trans ?_
  simp only [addf_apply, mulf_apply, subf_apply, divf_apply, maximumf_apply, minimumf_apply, splat_at, bcastCol32, bcastRow32,
    boxlo0, boxlo1, boxhi0, boxhi1, tgtlo0, tgtlo1, tgthi0, tgthi1, inter_at, l1_at, class_at]
  rfl

end Tile

end Cert.KernelSide

end
-- ==== Proof.KernelArray.lean ====
/-
  The kernel's result array as one function of the argument arrays.

  The launch hands the body, at grid point p of 8, rows 2400·p … 2400·p + 2399 of the flattened logits [19200, 13] and
  boxes [19200, 4], and (at every point) the 32 targets of batch 0 as a [4, 32] array of box coordinates and a [13, 32]
  matrix holding 1 at (k, t) when target t's class id is k, else 0. With every class id in [0, 13) column t of that matrix has its
  one 1 at the target's class, so the body's product of the row's softmax with that column is the softmax at the class.
  Point p writes rows 600·p … 600·p + 599 of the packed [4800, 128] result; unpacked to [19200, 32] and then to
  [64, 300, 32] it is the cost matrix of Spec.
-/
import proofs.«421090_j12876311953748_3_alg».proof.Proof.Gen.KernelIdeal.Frame
import proofs.«421090_j12876311953748_3_alg».proof.Proof.KernelPay
import proofs.«421090_j12876311953748_3_alg».proof.Proof.PreIds
import Idealize.ShloMosaic.Lib.Pipeline.Value
import Idealize.ShloMosaic.Lib.StableHlo.Run
import Idealize.ShloMosaic.Lib.StableHlo.Predicate
import Idealize.ShloMosaic.Lib.Tactic

set_option maxRecDepth 16384

noncomputable section

open scoped BigOperators

namespace Cert.KernelSide

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The four argument arrays on core c. -/
abbrev a0 (c : Dev nD) : S64x300x13.Idx → EReal := m ((c : Thread nD τ).loc main_arg0)
abbrev a1 (c : Dev nD) : S64x300x4.Idx → EReal := m ((c : Thread nD τ).loc main_arg1)
abbrev a2 (c : Dev nD) : S64x32x4.Idx → EReal := m ((c : Thread nD τ).loc main_arg2)
abbrev a3 (c : Dev nD) : S64x32.Idx → BitVec 32 := m ((c : Thread nD τ).loc main_arg3)

/-! ## What the host lines before the launch leave in the launch's four operands -/

/-- Flattened logits: row r = b·300 + q. -/
theorem logits_arr (c : Dev nD) :
    (V m c main_v0 : S19200x13.Idx → EReal) = shapeCast S19200x13 (a0 m c) shapeCasts_S64x300x13_S19200x13 := by
  show StableHlo.after hostOps0 (fun b => m (c, b)) (Proc.devRef .tc main_v0) = _
  after_results; rfl

/-- Flattened boxes. -/
theorem boxes_arr (c : Dev nD) :
    (V m c main_v1 : S19200x4.Idx → EReal) = shapeCast S19200x4 (a1 m c) shapeCasts_S64x300x4_S19200x4 := by
  show StableHlo.after hostOps0 (fun b => m (c, b)) (Proc.devRef .tc main_v1) = _
  after_results; rfl

/-- Batch 0's target boxes, transposed to [4, 32]. -/
theorem tgt_arr (c : Dev nD) :
    (V m c main_v13 : S4x32.Idx → EReal)
      = transpose S4x32 [1, 0] (shapeCast S32x4 (extractStridedSlice S1x32x4 ![0, 0, 0] (a2 m c) slices_S64x32x4_S1x32x4_0_0_0)
          shapeCasts_S1x32x4_S32x4) transposes_S32x4_S4x32_1_0 := by
  show StableHlo.after hostOps0 (fun b => m (c, b)) (Proc.devRef .tc main_v13) = _
  after_results; rfl

/-- The class-indicator matrix of batch 0's targets. -/
theorem onehot_arr (c : Dev nD) :
    (V m c main_v12 : S13x32.Idx → EReal)
      = uitofp (F := Ideal) .f32 (cmpi .eq
          (broadcastInDim S13x32 ![0, 1] bcast_S1x32_S13x32_0_1 (broadcastInDim S1x32 ![1] bcast_S32_S1x32_1
            (shapeCast S32 (extractStridedSlice S1x32 ![0, 0] (a3 m c) slices_S64x32_S1x32_0_0) shapeCasts_S1x32_S32)))
          (broadcastInDim S13x32 ![0, 1] bcast_S13x1_S13x32_0_1 (broadcastInDim S13x1 ![0] bcast_S13_S13x1_0 (iotaInDim S13 32 0)))) := by
  show StableHlo.after hostOps0 (fun b => m (c, b)) (Proc.devRef .tc main_v12) = _
  after_results; rfl

/-! ## Those operands at an entry -/

/-- Row r of the flattened logits is prediction (r / 300, r % 300). -/
theorem logits_at (c : Dev nD) (r : Fin 19200) (k : Fin 13) :
    (V m c main_v0 : S19200x13.Idx → EReal) (ix2 r k)
      = a0 m c (ix3 (⟨r.val / 300, by omega⟩ : Fin 64) (⟨r.val % 300, by omega⟩ : Fin 300) k) := by
  rw [logits_arr]
  exact shapeCast_apply _ _ (ix2 r k) _ (by
    rw [Shape.rowMajor_val_three, Shape.rowMajor_val_two]
    show (r.val / 300 * 300 + r.val % 300) * 13 + k.val = r.val * 13 + k.val
    omega)

/-- Row r of the flattened boxes is prediction (r / 300, r % 300). -/
theorem boxes_at (c : Dev nD) (r : Fin 19200) (a : Fin 4) :
    (V m c main_v1 : S19200x4.Idx → EReal) (ix2 r a)
      = a1 m c (ix3 (⟨r.val / 300, by omega⟩ : Fin 64) (⟨r.val % 300, by omega⟩ : Fin 300) a) := by
  rw [boxes_arr]
  exact shapeCast_apply _ _ (ix2 r a) _ (by
    rw [Shape.rowMajor_val_three, Shape.rowMajor_val_two]
    show (r.val / 300 * 300 + r.val % 300) * 4 + a.val = r.val * 4 + a.val
    omega)

/-- Column t of the transposed targets is target t of batch 0. -/
theorem tgt_at (c : Dev nD) (a : Fin 4) (t : Fin 32) :
    (V m c main_v13 : S4x32.Idx → EReal) (ix2 a t) = a2 m c (ix3 (0 : Fin 64) t a) := by
  rw [tgt_arr]
  refine (transpose_apply _ _ _ (ix2 a t) (ix2 t a) (fun b => by
    match b with
    | ⟨0, _⟩ => rfl
    | ⟨1, _⟩ => rfl)).trans ?_
  refine (shapeCast_apply _ _ (ix2 t a) (ix3 (0 : Fin 1) t a) (by
    rw [Shape.rowMajor_val_three, Shape.rowMajor_val_two]
    show (0 * 32 + t.val) * 4 + a.val = t.val * 4 + a.val
    omega)).trans ?_
  exact extractStridedSlice_apply _ _ _ (ix3 (0 : Fin 1) t a) (ix3 (0 : Fin 64) t a) (fun b => by
    match b with
    | ⟨0, _⟩ => rfl
    | ⟨1, _⟩ => show t.val = 0 + t.val; omega
    | ⟨2, _⟩ => show a.val = 0 + a.val; omega)

/-- Entry (k, t) of the indicator matrix: 1 when target t's id word is k, else 0. -/
theorem onehot_at (c : Dev nD) (k : Fin 13) (t : Fin 32) :
    (V m c main_v12 : S13x32.Idx → EReal) (ix2 k t)
      = if a3 m c (ix2 (0 : Fin 64) t) = BitVec.ofNat 32 k.val then (1 : EReal) else 0 := by
  rw [onehot_arr]
  show FloatOps.uitofp (F := Ideal) .f32 (IntOp.cmpi .eq _ _) = _
  have hl : broadcastInDim S13x32 ![0, 1] bcast_S1x32_S13x32_0_1 (broadcastInDim S1x32 ![1] bcast_S32_S1x32_1
      (shapeCast S32 (extractStridedSlice S1x32 ![0, 0] (a3 m c) slices_S64x32_S1x32_0_0) shapeCasts_S1x32_S32)) (ix2 k t)
      = a3 m c (ix2 (0 : Fin 64) t) := by
    refine (broadcastInDim_apply _ _ _ (ix2 k t) (ix2 (0 : Fin 1) t) (fun b => by
      match b with
      | ⟨0, _⟩ => rfl
      | ⟨1, _⟩ => rfl)).trans ?_
    refine (broadcastInDim_apply _ _ _ (ix2 (0 : Fin 1) t) (ix1 t) (fun b => by
      match b with
      | ⟨0, _⟩ => rfl)).trans ?_
    refine (shapeCast_apply _ _ (ix1 t) (ix2 (0 : Fin 1) t) (by
      rw [Shape.rowMajor_val_two, Shape.rowMajor_val_one]
      show 0 * 32 + t.val = t.val
      omega)).trans ?_
    exact extractStridedSlice_apply _ _ _ (ix2 (0 : Fin 1) t) (ix2 (0 : Fin 64) t) (fun b => by
      match b with
      | ⟨0, _⟩ => rfl
      | ⟨1, _⟩ => show t.val = 0 + t.val; omega)
  have hr : broadcastInDim S13x32 ![0, 1] bcast_S13x1_S13x32_0_1 (broadcastInDim S13x1 ![0] bcast_S13_S13x1_0 (iotaInDim S13 32 0)) (ix2 k t)
      = BitVec.ofNat 32 k.val := by
    refine (broadcastInDim_apply _ _ _ (ix2 k t) (ix2 k (0 : Fin 1)) (fun b => by
      match b with
      | ⟨0, _⟩ => rfl
      | ⟨1, _⟩ => rfl)).trans ?_
    refine (broadcastInDim_apply _ _ _ (ix2 k (0 : Fin 1)) (ix1 k) (fun b => by
      match b with
      | ⟨0, _⟩ => rfl)).trans ?_
    rfl
  rw [hl, hr]
  by_cases h : a3 m c (ix2 (0 : Fin 64) t) = BitVec.ofNat 32 k.val
  · rw [if_pos h, StableHlo.Predicate.cmpi_eq_iff.mpr h]
    show (((1#1 : BitVec 1).toNat : ℝ) : EReal) = 1
    simp
  · rw [if_neg h, eq_zero_of_ne_one (fun e => h (StableHlo.Predicate.cmpi_eq_iff.mp e))]
    show (((0#1 : BitVec 1).toNat : ℝ) : EReal) = 0
    simp

/-! ## The blocks the body is handed at a grid point -/

theorem hz : (![0, 0] : Fin 2 → Nat) = fun _ => 0 := funext fun a => by fin_cases a <;> rfl

/-- The printed index maps over the grid: the two target operands sit at block (0, 0); logits, boxes and the result move
    down one block of rows per point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The four input blocks at point t, each at its literal shape. -/
abbrev ohblk (c : Dev nD) (t : Fin cfg0.N) : Vec Ideal S13x32 .f32 := iblk m c 0 t
abbrev tgblk (c : Dev nD) (t : Fin cfg0.N) : Vec Ideal S4x32 .f32 := iblk m c 1 t
abbrev lgblk (c : Dev nD) (t : Fin cfg0.N) : Vec Ideal S2400x13 .f32 := iblk m c 2 t
abbrev bxblk (c : Dev nD) (t : Fin cfg0.N) : Vec Ideal S2400x4 .f32 := iblk m c 3 t

/-- The indicator block is the whole indicator matrix. -/
theorem ohblk_at (c : Dev nD) (t : Fin cfg0.N) (k : Fin 13) (t' : Fin 32) :
    ohblk m c t (ix2 k t') = (V m c main_v12 : S13x32.Idx → EReal) (ix2 k t') := by
  obtain ⟨e0, e1, -⟩ := idx_facts t
  unfold ohblk iblk
  rw [View.read_apply]
  show V m c main_v12 _ = V m c main_v12 _
  congr 1
  funext a
  apply Fin.ext
  match a with
  | ⟨0, _⟩ => show win0_0.index t 0 * 13 + 1 * k.val = k.val; rw [e0]; omega
  | ⟨1, _⟩ => show win0_0.index t 1 * 32 + 1 * t'.val = t'.val; rw [e1]; omega

/-- The target block is the whole [4, 32] target array. -/
theorem tgblk_at (c : Dev nD) (t : Fin cfg0.N) (a : Fin 4) (t' : Fin 32) :
    tgblk m c t (ix2 a t') = (V m c main_v13 : S4x32.Idx → EReal) (ix2 a t') := by
  obtain ⟨-, -, e0, e1, -⟩ := idx_facts t
  unfold tgblk iblk
  rw [View.read_apply]
  show V m c main_v13 _ = V m c main_v13 _
  congr 1
  funext b
  apply Fin.ext
  match b with
  | ⟨0, _⟩ => show win0_1.index t 0 * 4 + 1 * a.val = a.val; rw [e0]; omega
  | ⟨1, _⟩ => show win0_1.index t 1 * 32 + 1 * t'.val = t'.val; rw [e1]; omega

/-- Row l of the logits block at point t is row 2400·t + l of the flattened logits. -/
theorem lgblk_at (c : Dev nD) (t : Fin cfg0.N) (l : Fin 2400) (k : Fin 13) (r : Fin 19200) (hr : r.val = 2400 * t.val + l.val) :
    lgblk m c t (ix2 l k) = (V m c main_v0 : S19200x13.Idx → EReal) (ix2 r k) := by
  obtain ⟨-, -, -, -, e0, e1, -⟩ := idx_facts t
  unfold lgblk iblk
  rw [View.read_apply]
  show V m c main_v0 _ = V m c main_v0 _
  congr 1
  funext a
  apply Fin.ext
  match a with
  | ⟨0, _⟩ => show win0_2.index t 0 * 2400 + 1 * l.val = r.val; rw [e0, hr]; omega
  | ⟨1, _⟩ => show win0_2.index t 1 * 13 + 1 * k.val = k.val; rw [e1]; omega

/-- Row l of the box block at point t is row 2400·t + l of the flattened boxes. -/
theorem bxblk_at (c : Dev nD) (t : Fin cfg0.N) (l : Fin 2400) (a : Fin 4) (r : Fin 19200) (hr : r.val = 2400 * t.val + l.val) :
    bxblk m c t (ix2 l a) = (V m c main_v1 : S19200x4.Idx → EReal) (ix2 r a) := by
  obtain ⟨-, -, -, -, -, -, e0, e1, -⟩ := idx_facts t
  unfold bxblk iblk
  rw [View.read_apply]
  show V m c main_v1 _ = V m c main_v1 _
  congr 1
  funext b
  apply Fin.ext
  match b with
  | ⟨0, _⟩ => show win0_3.index t 0 * 2400 + 1 * l.val = r.val; rw [e0, hr]; omega
  | ⟨1, _⟩ => show win0_3.index t 1 * 4 + 1 * a.val = a.val; rw [e1]; omega

/-! ## The packed result -/

/-- Σ_k f k · [w = k] picks f at the class of w, for a class id w in [0, 13). -/
theorem onehot_sum (f : Fin 13 → EReal) (w : BitVec 32) (h0 : 0 ≤ w.toInt) (h1 : w.toInt < 13) :
    ∑ k : Fin 13, f k * (if w = BitVec.ofNat 32 k.val then (1 : EReal) else 0) = f (Spec.clsOf w) := by
  rw [Finset.sum_eq_single (Spec.clsOf w)]
  · rw [if_pos ((Cert.PreIds.eq_iff_cls w h0 h1 _).mpr rfl), mul_one]
  · intro k _ hk
    rw [if_neg (fun e => hk ((Cert.PreIds.eq_iff_cls w h0 h1 k).mp e).symm), mul_zero]
  · intro h; exact absurd (Finset.mem_univ _) h

/-- The row of the [19200, 32] cost matrix that entry i of the packed [4800, 128] array belongs to. -/
abbrev rowOf (i : S4800x128.Idx) : Fin 19200 := ⟨4 * (i 0).val + (i 1).val / 32, by
  have h0 : (i 0).val < 4800 := idx2_lt0 i; have h1 : (i 1).val < 128 := idx2_lt1 i; omega⟩

/-- The packed result: four consecutive cost rows side by side. -/
def packed (c : Dev nD) : S4800x128.Idx → EReal := fun i =>
  Spec.G (a0 m c) (a1 m c) (a2 m c) (a3 m c)
    (ix3 (⟨(rowOf i).val / 300, by have := (rowOf i).isLt; omega⟩ : Fin 64) (⟨(rowOf i).val % 300, by omega⟩ : Fin 300)
      (⟨(i 1).val % 32, by omega⟩ : Fin 32))

/-- What the body stores at point t, entry j of its [600, 128] block: the packed result at the array entry under it. -/
theorem blockval (c : Dev nD) (hids : ∀ t' : Fin 32, 0 ≤ (a3 m c (ix2 (0 : Fin 64) t')).toInt ∧ (a3 m c (ix2 (0 : Fin 64) t')).toInt < 13)
    (t : Fin cfg0.N) (j : S600x128.Idx) (i : S4800x128.Idx) (hi0 : (i 0).val = 600 * t.val + (j 0).val) (hi1 : (i 1).val = (j 1).val) :
    k0_pay1 (F := Ideal) (k0_pay8 (bxblk m c t)) (k0_pay9 (bxblk m c t)) (k0_pay10 (bxblk m c t)) (k0_pay11 (bxblk m c t))
        (k0_pay17 (k0_pay13 (tgblk m c t)) (k0_pay15 (tgblk m c t))) (k0_pay18 (k0_pay14 (tgblk m c t)) (k0_pay16 (tgblk m c t)))
        (k0_pay19 (k0_pay13 (tgblk m c t)) (k0_pay15 (tgblk m c t))) (k0_pay20 (k0_pay14 (tgblk m c t)) (k0_pay16 (tgblk m c t)))
        (k0_pay21 (k0_pay2 (lgblk m c t) (ohblk m c t)) (k0_pay4 (bxblk m c t)) (k0_pay5 (bxblk m c t)) (k0_pay6 (bxblk m c t)) (k0_pay7 (bxblk m c t))
          (k0_pay13 (tgblk m c t)) (k0_pay14 (tgblk m c t)) (k0_pay15 (tgblk m c t)) (k0_pay16 (tgblk m c t)))
        (k0_pay22 (k0_pay8 (bxblk m c t)) (k0_pay9 (bxblk m c t)) (k0_pay10 (bxblk m c t)) (k0_pay11 (bxblk m c t))
          (k0_pay13 (tgblk m c t)) (k0_pay14 (tgblk m c t)) (k0_pay15 (tgblk m c t)) (k0_pay16 (tgblk m c t)))
        j
      = packed m c i := by
  have hj0 : (j 0).val < 600 := idx2_lt0 j
  have hj1 : (j 1).val < 128 := idx2_lt1 j
  have ht : t.val < 8 := by have h := t.isLt; have e : cfg0.N = 8 := N_0; omega
  rw [eq_ix2 j]
  refine (tile_at (ohblk m c t) (tgblk m c t) (lgblk m c t) (bxblk m c t)
    (⟨4 * (j 0).val + (j 1).val / 32, by omega⟩ : Fin 2400) (⟨(j 1).val % 32, by omega⟩ : Fin 32) (j 0) (j 1) (by
      show (4 * (j 0).val + (j 1).val / 32) * 32 + (j 1).val % 32 = (j 0).val * 128 + (j 1).val; omega)).trans ?_
  have hrow : (rowOf i).val = 2400 * t.val + (4 * (j 0).val + (j 1).val / 32) := by
    show 4 * (i 0).val + (i 1).val / 32 = _; rw [hi0, hi1]; omega
  unfold packed Spec.G Spec.cost
  have hx : (fun k => lgblk m c t (ix2 (⟨4 * (j 0).val + (j 1).val / 32, by omega⟩ : Fin 2400) k))
      = fun k => a0 m c (ix3 (⟨(rowOf i).val / 300, by have := (rowOf i).isLt; omega⟩ : Fin 64) (⟨(rowOf i).val % 300, by omega⟩ : Fin 300) k) :=
    funext fun k => (lgblk_at m c t _ k (rowOf i) hrow).trans (logits_at m c (rowOf i) k)
  have hp : (fun a => bxblk m c t (ix2 (⟨4 * (j 0).val + (j 1).val / 32, by omega⟩ : Fin 2400) a))
      = fun a => a1 m c (ix3 (⟨(rowOf i).val / 300, by have := (rowOf i).isLt; omega⟩ : Fin 64) (⟨(rowOf i).val % 300, by omega⟩ : Fin 300) a) :=
    funext fun a => (bxblk_at m c t _ a (rowOf i) hrow).trans (boxes_at m c (rowOf i) a)
  have hg : (fun a => tgblk m c t (ix2 a (⟨(j 1).val % 32, by omega⟩ : Fin 32)))
      = fun a => a2 m c (ix3 (0 : Fin 64) (⟨(i 1).val % 32, by omega⟩ : Fin 32) a) :=
    funext fun a => (tgblk_at m c t a _).trans ((tgt_at m c a _).trans (by
      congr 1; funext b; apply Fin.ext
      match b with
      | ⟨0, _⟩ => rfl
      | ⟨1, _⟩ => show (j 1).val % 32 = (i 1).val % 32; rw [hi1]
      | ⟨2, _⟩ => rfl))
  have hw : ∀ k : Fin 13, ohblk m c t (ix2 k (⟨(j 1).val % 32, by omega⟩ : Fin 32))
      = if a3 m c (ix2 (0 : Fin 64) (⟨(i 1).val % 32, by omega⟩ : Fin 32)) = BitVec.ofNat 32 k.val then (1 : EReal) else 0 := fun k =>
    (ohblk_at m c t k _).trans ((onehot_at m c k _).trans (by
      have e : (⟨(j 1).val % 32, by omega⟩ : Fin 32) = (⟨(i 1).val % 32, by omega⟩ : Fin 32) := Fin.ext (by show (j 1).val % 32 = (i 1).val % 32; rw [hi1])
      rw [e]))
  rw [hx, hp, hg]
  simp only [hw]
  rw [onehot_sum _ _ (hids _).1 (hids _).2]
  show Spec.one * (Spec.zero - _) + _ + Spec.two * (Spec.zero - _) = Spec.one * (-_) + _ + Spec.two * (-_)
  rw [show Spec.zero = (0 : EReal) from Ideal.ofBits_zero_f32, zero_sub, zero_sub]

end Cert.KernelSide

end
-- ==== Proof.KernelRun.lean ====
/-
  The kernel program's run, read: the result array holds the cost matrix of Spec.

  Point t of the grid writes block t (rows 600·t … 600·t + 599) of the packed [4800, 128] array; the eight blocks cover it,
  so after the launch the array is the packed result. The two host lines after the launch re-lay it as [19200, 32] and
  then [64, 300, 32] without moving a value: entry (b, q, t') is packed entry ((300·b + q) / 4, 32·((300·b + q) % 4) + t').
-/
import proofs.«421090_j12876311953748_3_alg».proof.Proof.KernelArray

set_option maxRecDepth 16384

noncomputable section

namespace Cert.KernelSide

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- Every class id of batch 0 lies in [0, 13) on core c. -/
abbrev IdsOk (c : Dev nD) : Prop :=
  ∀ t' : Fin 32, 0 ≤ (a3 m c (ix2 (0 : Fin 64) t')).toInt ∧ (a3 m c (ix2 (0 : Fin 64) t')).toInt < 13

/-- What point t writes back is block t of the packed result. -/
theorem flushed_eq (c : Dev nD) (hids : IdsOk m c) (t : Fin cfg0.N) :
    (dats m 0 c).flushed 4 t = ((cfg0.win 4).blk t).view.read (Elt Ideal) (packed m c) := by
  show (cfg0.win 4).cut (grid0.coords t) ((dats m 0 c).after 4 t) = _
  rw [after0_4]
  unfold out0_4
  rw [View.canon_unit_zero hz]
  simp only [View.ld_unit_zero (S := S13x32) hz, View.ld_unit_zero (S := S4x32) hz, View.ld_unit_zero (S := S2400x13) hz,
    View.ld_unit_zero (S := S2400x4) hz]
  obtain ⟨-, -, -, -, -, -, -, -, e0, e1⟩ := idx_facts t
  funext j
  exact blockval m c hids t j (((cfg0.win 4).blk t).view.emb j)
    (by show win0_4.index t (0 : Fin 2) * 600 + 1 * (j 0).val = 600 * t.val + (j 0).val; rw [e0]; omega)
    (by show win0_4.index t (1 : Fin 2) * 128 + 1 * (j 1).val = (j 1).val; rw [e1]; omega)

/-- An entry of the array is in point t's block iff each coordinate is in the block's range. -/
theorem mem_blk (t : Fin cfg0.N) (i : S4800x128.Idx) :
    i ∈ ((cfg0.win 4).blk t).view.set ↔ ∀ a : Fin 2, win0_4.index t a * S600x128.size a ≤ (i a).val ∧ (i a).val < win0_4.index t a * S600x128.size a + S600x128.size a := by
  show i ∈ ((View.whole main_v14).slice (win0_4.rect t)).set ↔ _
  rw [View.set_slice_whole, Rect.mem_set_unit]
  exact Iff.rfl

/-- The eight blocks cover the array: row r lies in block r / 600. -/
theorem cover (i : S4800x128.Idx) : ∃ t : Fin cfg0.N, (cfg0.win 4).flush t = true ∧ i ∈ ((cfg0.win 4).blk t).view.set := by
  have h0 : (i 0).val < 4800 := idx2_lt0 i
  have h1 : (i 1).val < 128 := idx2_lt1 i
  have hN : cfg0.N = 8 := N_0
  refine ⟨⟨(i 0).val / 600, by omega⟩, flush0_4 _, ?_⟩
  obtain ⟨-, -, -, -, -, -, -, -, e0, e1⟩ := idx_facts (⟨(i 0).val / 600, by omega⟩ : Fin cfg0.N)
  rw [mem_blk]
  intro a
  match a with
  | ⟨0, _⟩ =>
    show win0_4.index _ (0 : Fin 2) * 600 ≤ (i 0).val ∧ (i 0).val < win0_4.index _ (0 : Fin 2) * 600 + 600
    rw [e0]; show (i 0).val / 600 * 600 ≤ (i 0).val ∧ (i 0).val < (i 0).val / 600 * 600 + 600; omega
  | ⟨1, _⟩ =>
    show win0_4.index _ (1 : Fin 2) * 128 ≤ (i 1).val ∧ (i 1).val < win0_4.index _ (1 : Fin 2) * 128 + 128
    rw [e1]; omega

/-- After the launch the result window's array is the packed result. -/
theorem final (c : Dev nD) (hids : IdsOk m c) : (dats m 0 c).arrAt 4 cfg0.N = packed m c :=
  (dats m 0 c).arrAt_eq_of_cover 4 (packed m c) (fun t _ => flushed_eq m c hids t) (cover)

/-- The packed result unpacked by the two host lines after the launch is the cost matrix. -/
theorem unpack (c : Dev nD) :
    shapeCast S64x300x32 (shapeCast S19200x32 (packed m c) shapeCasts_S4800x128_S19200x32) shapeCasts_S19200x32_S64x300x32
      = Spec.G (a0 m c) (a1 m c) (a2 m c) (a3 m c) := by
  funext i
  have h0 : (i 0).val < 64 := (i 0).isLt
  have h1 : (i 1).val < 300 := (i 1).isLt
  have h2 : (i 2).val < 32 := (i 2).isLt
  refine (shapeCast_apply _ _ i (ix2 (⟨(i 0).val * 300 + (i 1).val, by omega⟩ : Fin 19200) (⟨(i 2).val, h2⟩ : Fin 32)) (by
    rw [Shape.rowMajor_val_two, Shape.rowMajor_val_three]
    show ((i 0).val * 300 + (i 1).val) * 32 + (i 2).val = ((i 0).val * 300 + (i 1).val) * 32 + (i 2).val
    rfl)).trans ?_
  refine (shapeCast_apply _ _ (ix2 (⟨(i 0).val * 300 + (i 1).val, by omega⟩ : Fin 19200) (⟨(i 2).val, h2⟩ : Fin 32))
    (ix2 (⟨((i 0).val * 300 + (i 1).val) / 4, by omega⟩ : Fin 4800)
      (⟨((i 0).val * 300 + (i 1).val) % 4 * 32 + (i 2).val, by omega⟩ : Fin 128)) (by
    rw [Shape.rowMajor_val_two, Shape.rowMajor_val_two]
    show ((i 0).val * 300 + (i 1).val) / 4 * 128 + (((i 0).val * 300 + (i 1).val) % 4 * 32 + (i 2).val) = ((i 0).val * 300 + (i 1).val) * 32 + (i 2).val
    omega)).trans ?_
  unfold packed
  congr 1
  funext a
  apply Fin.ext
  match a with
  | ⟨0, _⟩ =>
    show (4 * (((i 0).val * 300 + (i 1).val) / 4) + (((i 0).val * 300 + (i 1).val) % 4 * 32 + (i 2).val) / 32) / 300 = (i 0).val
    omega
  | ⟨1, _⟩ =>
    show (4 * (((i 0).val * 300 + (i 1).val) / 4) + (((i 0).val * 300 + (i 1).val) % 4 * 32 + (i 2).val) / 32) % 300 = (i 1).val
    omega
  | ⟨2, _⟩ =>
    show (((i 0).val * 300 + (i 1).val) % 4 * 32 + (i 2).val) % 32 = (i 2).val
    omega

/-- What the result buffer holds after the two host lines that follow the launch. -/
theorem result_arr (c : Dev nD) (hids : IdsOk m c) :
    Pipeline.afterTail₀ cfgs (dats m) 0 (V0 m) [hostOps1] c main_v16 = Spec.G (a0 m c) (a1 m c) (a2 m c) (a3 m c) := by
  unfold Pipeline.afterTail₀
  show StableHlo.after hostOps1 _ (Proc.devRef .tc main_v16) = _
  after_results
  have hw : Pipeline.withArrays (cfgs 0).spec c (V0 m c) (fun w => (dats m 0 c).arrAt w (cfgs 0).N) (Proc.devRef .tc main_v14)
      = packed m c :=
    (Pipeline.withArrays_arr spec0 launch0.win.arr_inj c _ _ 4).trans (final m c hids)
  rw [← unpack m c, ← hw]
  rfl

/-- The kernel program's run, read: every weakly fair execution terminates with the result buffer at the cost matrix of
    the arguments, and the arguments unchanged. -/
theorem run (hids : ∀ c : Dev nD, IdsOk m c) :
    θ_run defs (onTc (τ := τ) (main (F := Ideal))) ⟨m, fun _ => 0, ρ⟩ fun r => ∀ c : Dev nD,
      r.2.mem ((c.tc : Thread nD τ).loc main_v16) = Spec.G (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v16 (Pipeline.mem_restRefs_of main_v16 (by decide) (by decide))).trans (result_arr m c (hids c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelSide

end
-- ==== Proof.RefValueA.lean ====
/-
  The reference's class term, entry by entry: the softmax of a row of the flattened logits (the row's maximum folded
  from −∞, the shifted exponentials, their sum, the quotient), the class column (a negative id wrapped by 13), and the
  gather that reads, at (r, c), row r's softmax at the class of column c, clamped into [0, 12]; then its negation.
  Every statement is at explicit coordinates over the flattened arguments; the flattened logits and ids are read back
  at the arguments' own coordinates.
-/
import proofs.«421090_j12876311953748_3_alg».proof.Proof.Gen.ReferenceIdeal.Read
import proofs.«421090_j12876311953748_3_alg».proof.Proof.Spec
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RefSide

open Cert.ReferenceIdeal Cert.ReferenceIdeal.Gen Cert.ReferenceIdeal.Read Idealize.ShloMosaic Idealize.ShloMosaic.ValueIdx

/-- −∞ is below every extended real, so a maximum with it is the other operand. -/
theorem max_ninf (y : EReal) : max (Ideal.ofBits .f32 0xFF800000#32) y = y := by
  simp [Ideal.ofBits, Ideal.ieee]

variable {α : Type}

/-- The dimension numbers of a column-take: from an `[N, C]` table and an `[n, 1]` column of column numbers, the `[N, n]` array whose column `q` is the table's column number `q`. -/
abbrev colDims (N C n : Nat)
    (wf : GatherDims.WF ⟨2, ![N, C]⟩ ⟨2, ![n, 1]⟩ ⟨2, ![N, n]⟩ [0] [1] [] [1] [] 1 ![N, 1]) :
    GatherDims ⟨2, ![N, C]⟩ ⟨2, ![n, 1]⟩ ⟨2, ![N, n]⟩ where
  offsetDims := [0]
  collapsedSliceDims := [1]
  operandBatchingDims := []
  startIndicesBatchingDims := []
  startIndexMap := [1]
  indexVectorDim := 1
  sliceSizes := ![N, 1]
  wf := wf

/-- The column-take read at `(p, q)`: the table at row `p`, column `idx[q, 0]` read signed and clamped into `[0, C − 1]`. -/
theorem gather_cols_apply {N C n w : Nat} (hC : 0 < C)
    (wf : GatherDims.WF ⟨2, ![N, C]⟩ ⟨2, ![n, 1]⟩ ⟨2, ![N, n]⟩ [0] [1] [] [1] [] 1 ![N, 1])
    (x : (⟨2, ![N, C]⟩ : Shape).Idx → α) (idx : IVec ⟨2, ![n, 1]⟩ w) (p : Fin N) (q : Fin n) :
    Host.gather (colDims N C n wf) x idx (ix2 p q)
      = x (ix2 p ⟨min (idx (ix2 q ⟨0, Nat.one_pos⟩)).toInt.toNat (C - 1), by omega⟩) := by
  unfold Host.gather
  congr 1
  funext a
  refine Fin.ext ?_
  show (colDims N C n wf).start (ix2 p q) idx a + (colDims N C n wf).batchCoord (ix2 p q) a
    + (colDims N C n wf).offCoord (ix2 p q) a = _
  rw [GatherDims.batchCoord_eq_zero _ _ _ List.not_mem_nil, Nat.add_zero]
  match a with
  | ⟨0, _⟩ =>
    -- the row axis: no start index names it; the offset is the result's own row
    have hs : (colDims N C n wf).start (ix2 p q) idx (⟨0, Nat.zero_lt_two⟩ : Fin 2) = 0 := by
      unfold GatherDims.start
      rw [dif_neg (fun h => by have := congrArg Fin.val (List.mem_singleton.mp h); simp at this)]
    rw [hs, Nat.zero_add]
    rfl
  | ⟨1, _⟩ =>
    -- the column axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨1, by decide⟩ : Fin 2) ∈ (colDims N C n wf).startIndexMap from List.mem_singleton.mpr rfl)]
    have hsi : (colDims N C n wf).siIdx (ix2 p q)
        ⟨List.idxOf (⟨1, by decide⟩ : Fin 2) (colDims N C n wf).startIndexMap,
          List.idxOf_lt_length_iff.2 (List.mem_singleton.mpr rfl)⟩ = ix2 q ⟨0, Nat.one_pos⟩ := by
      funext b; refine Fin.ext ?_
      match b with
      | ⟨0, _⟩ => rfl
      | ⟨1, _⟩ => rfl
    rw [hsi]
    rfl

/-- The reduced row index `r` with column `k` put back is (r, k). -/
theorem lift_row {R K : Nat} (h : (⟨2, ![R, K]⟩ : Shape).Reduces [1] (⟨1, ![R]⟩ : Shape)) (r : Fin R)
    (k : Fin ((⟨2, ![R, K]⟩ : Shape).size 1)) : h.lift (ix1 r) k = ix2 r (⟨k.val, k.isLt⟩ : Fin K) := by
  funext c; apply Fin.ext
  fin_cases c <;> rfl

/-- The host's reduce with a maximum body over the columns of a row is the fold of `max` over the row from the initial value. -/
theorem hostReduce_max_row {R K : Nat} (x : FVec Ideal ⟨2, ![R, K]⟩ .f32) (init : FVec Ideal ⟨0, ![]⟩ .f32)
    (h' : (⟨2, ![R, K]⟩ : Shape).ReducesTo [1] (⟨1, ![R]⟩ : Shape))
    (h : (⟨2, ![R, K]⟩ : Shape).Reduces [1] (⟨1, ![R]⟩ : Shape)) (hu : 0 < (⟨0, ![]⟩ : Shape).numel) (r : Fin R) :
    Host.reduce FloatOps.maximumf x init h' hu (ix1 r)
      = (Finset.univ : Finset (Fin K)).fold max (init (Shape.Idx.first hu)) (fun k => x (ix2 r k)) := by
  rw [Host.reduce_eq_fold_single FloatOps.maximumf x _ h' h hu]
  have hf : (x ∘ h.lift (ix1 r)) = fun k : Fin K => x (ix2 r k) := funext fun k => congrArg x (lift_row h r k)
  exact congrArg (fun f => Finset.fold max (init (Shape.Idx.first hu)) f (Finset.univ : Finset (Fin K))) hf

/-! ## The arguments' types, and the flattened arguments read at coordinates -/

abbrev X0 := (⟨S64x300x13, .f32⟩ : BufTy).Contents (Elt Ideal)
abbrev X3 := (⟨S64x32, .i32⟩ : BufTy).Contents (Elt Ideal)

/-- Row `b·300 + q` of the flattened logits is row `(b, q)` of the logits. -/
theorem v0_at (x0 : X0) (b : Fin 64) (q : Fin 300) (k : Fin 13) :
    val_main_v0 (F := Ideal) x0 (ix2 (⟨b.val * 300 + q.val, by omega⟩ : Fin 19200) k) = x0 (ix3 b q k) := by
  rw [val_main_v0_apply]
  refine congrArg x0 (funext fun a => Fin.ext ?_)
  have hb := b.isLt; have hq := q.isLt; have hk := k.isLt
  match a with
  | ⟨0, _⟩ => show ((b.val * 300 + q.val) * 13 + k.val) / 3900 = b.val; omega
  | ⟨1, _⟩ => show ((b.val * 300 + q.val) * 13 + k.val) / 13 % 300 = q.val; omega
  | ⟨2, _⟩ => show ((b.val * 300 + q.val) * 13 + k.val) % 13 = k.val; omega

/-- Entry `t < 32` of the flattened ids is id `t` of batch 0. -/
theorem v14_at (x3 : X3) (t : Fin 32) :
    val_main_v14 (F := Ideal) x3 (ix1 (⟨t.val, by omega⟩ : Fin 2048)) = x3 (ix2 (0 : Fin 64) t) := by
  rw [val_main_v14_apply]
  refine congrArg x3 (funext fun a => Fin.ext ?_)
  have ht := t.isLt
  match a with
  | ⟨0, _⟩ => show t.val / 32 = 0; omega
  | ⟨1, _⟩ => show t.val % 32 = t.val; omega

/-! ## The softmax of a row -/

/-- Row `r` of the flattened logits. -/
abbrev row (x0 : X0) (r : Fin 19200) : Fin 13 → EReal := fun k => val_main_v0 (F := Ideal) x0 (ix2 r k)

theorem v1_at (x0 : X0) (r : Fin 19200) : val_main_v1 (F := Ideal) x0 (ix1 r) = Spec.rowMax (row x0 r) := by
  unfold val_main_v1
  exact hostReduce_max_row (val_main_v0 (F := Ideal) x0) (val_main_cst (F := Ideal)) reducesTo_S19200x13_S19200_d1 (by decide) h_S_ r

theorem v3_at (x0 : X0) (r : Fin 19200) : val_main_v3 (F := Ideal) x0 (ix1 r) = Spec.rowMax (row x0 r) := by
  rw [val_main_v3_apply, val_main_v2_apply, val_main_cst_0_apply, v1_at]
  exact max_ninf _

theorem v5_at (x0 : X0) (r : Fin 19200) (k : Fin 13) : val_main_v5 (F := Ideal) x0 (ix2 r k) = Spec.rowMax (row x0 r) := by
  rw [val_main_v5_apply, val_main_v4_apply]
  refine (congrArg (val_main_v3 (F := Ideal) x0) (funext fun a => Fin.ext ?_)).trans (v3_at x0 r)
  match a with
  | ⟨0, _⟩ => rfl

theorem v7_at (x0 : X0) (r : Fin 19200) (k : Fin 13) : val_main_v7 (F := Ideal) x0 (ix2 r k) = Spec.expShift (row x0 r) k := by
  rw [val_main_v7_apply, val_main_v6_apply, v5_at]
  rfl

theorem v8_at (x0 : X0) (r : Fin 19200) : val_main_v8 (F := Ideal) x0 (ix1 r) = ∑ j : Fin 13, Spec.expShift (row x0 r) j := by
  rw [val_main_v8_apply, val_main_cst_1_apply]
  refine (congrArg (· + _) Ideal.ofBits_zero_f32).trans ((zero_add _).trans ?_)
  refine Finset.sum_congr rfl fun k _ => ?_
  refine (congrArg (val_main_v7 (F := Ideal) x0) (funext fun a => Fin.ext ?_)).trans (v7_at x0 r k)
  match a with
  | ⟨0, _⟩ => rfl
  | ⟨1, _⟩ => rfl

theorem v10_at (x0 : X0) (r : Fin 19200) (k : Fin 13) : val_main_v10 (F := Ideal) x0 (ix2 r k) = ∑ j : Fin 13, Spec.expShift (row x0 r) j := by
  rw [val_main_v10_apply, val_main_v9_apply]
  refine (congrArg (val_main_v8 (F := Ideal) x0) (funext fun a => Fin.ext ?_)).trans (v8_at x0 r)
  match a with
  | ⟨0, _⟩ => rfl

theorem v11_at (x0 : X0) (r : Fin 19200) (k : Fin 13) : val_main_v11 (F := Ideal) x0 (ix2 r k) = Spec.softmax (row x0 r) k := by
  rw [val_main_v11_apply, v7_at, v10_at]
  rfl

/-! ## The class column -/

theorem v19_at (x3 : X3) (c : Fin 2048) : val_main_v19 (F := Ideal) x3 (ix1 c) = Spec.wrapWord (val_main_v14 (F := Ideal) x3 (ix1 c)) := by
  rw [val_main_v19_apply, val_main_v16_apply, val_main_v18_apply, val_main_v15_apply, val_main_v17_apply, val_main_c_apply, val_main_c_2_apply]
  rfl

theorem v20_at (x3 : X3) (c : Fin 2048) :
    val_main_v20 (F := Ideal) x3 (ix2 c (⟨0, Nat.one_pos⟩ : Fin 1)) = Spec.wrapWord (val_main_v14 (F := Ideal) x3 (ix1 c)) := by
  rw [val_main_v20_apply]
  refine (congrArg (val_main_v19 (F := Ideal) x3) (funext fun a => Fin.ext ?_)).trans (v19_at x3 c)
  match a with
  | ⟨0, _⟩ => rfl

theorem v21_at (x0 : X0) (x3 : X3) (r : Fin 19200) (c : Fin 2048) :
    val_main_v21 (F := Ideal) x0 x3 (ix2 r c) = Spec.softmax (row x0 r) (Spec.clsOf (val_main_v14 (F := Ideal) x3 (ix1 c))) := by
  unfold val_main_v21
  refine (gather_cols_apply (N := 19200) (C := 13) (n := 2048) (by decide) gather_S19200x13_S2048x1_S19200x2048_0_1_n_n_1_1_192001_wf
    (val_main_v11 (F := Ideal) x0) (val_main_v20 (F := Ideal) x3) r c).trans ?_
  refine Eq.trans (congrArg (val_main_v11 (F := Ideal) x0) (congrArg (ix2 r) (Fin.ext ?_))) (v11_at x0 r _)
  show min (val_main_v20 (F := Ideal) x3 (ix2 c (⟨0, Nat.one_pos⟩ : Fin 1))).toInt.toNat (13 - 1) = min (Spec.wrapWord (val_main_v14 (F := Ideal) x3 (ix1 c))).toInt.toNat 12
  rw [v20_at]

/-- The class term: minus the softmax of row `r` at the class of column `c`. -/
theorem v22_at (x0 : X0) (x3 : X3) (r : Fin 19200) (c : Fin 2048) :
    val_main_v22 (F := Ideal) x0 x3 (ix2 r c) = -(Spec.softmax (row x0 r) (Spec.clsOf (val_main_v14 (F := Ideal) x3 (ix1 c)))) := by
  rw [val_main_v22_apply, v21_at]
  rfl

end Cert.RefSide

end
-- ==== Proof.RefValueB.lean ====
/-
  The reference's box terms on each side alone, entry by entry: the L1 distance of a prediction's box and a target's box
  (the sum over the four coordinates of |p − g|), and for each side the corner array (low and high end on each of the
  two axes, from centre and size) and the box's area. Every statement is at explicit coordinates over the flattened
  arguments; the flattened boxes are read back at the arguments' own coordinates.
-/
import proofs.«421090_j12876311953748_3_alg».proof.Proof.Gen.ReferenceIdeal.Read
import proofs.«421090_j12876311953748_3_alg».proof.Proof.Spec
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RefSide

open Cert.ReferenceIdeal Cert.ReferenceIdeal.Gen Cert.ReferenceIdeal.Read Idealize.ShloMosaic Idealize.ShloMosaic.ValueIdx

variable {α : Type}

/-- One of four by its number. -/
def sel4 (u0 u1 u2 u3 : α) (a : Fin 4) : α :=
  match a with | ⟨0, _⟩ => u0 | ⟨1, _⟩ => u1 | ⟨2, _⟩ => u2 | ⟨3, _⟩ => u3

/-- Four `[R, 1]` columns joined along axis 1, read at `(r, a)`: column `a` at `(r, 0)`. -/
theorem concat4_apply {R : Nat} (u0 u1 u2 u3 : (⟨2, ![R, 1]⟩ : Shape).Idx → α)
    (h : Shape.Concatenates [(⟨2, ![R, 1]⟩ : Shape), ⟨2, ![R, 1]⟩, ⟨2, ![R, 1]⟩, ⟨2, ![R, 1]⟩] (⟨2, ![R, 4]⟩ : Shape) 1)
    (r : Fin R) (a : Fin 4) :
    concatenate (⟨2, ![R, 4]⟩ : Shape) 1 [⟨⟨2, ![R, 1]⟩, u0⟩, ⟨⟨2, ![R, 1]⟩, u1⟩, ⟨⟨2, ![R, 1]⟩, u2⟩, ⟨⟨2, ![R, 1]⟩, u3⟩] h (ix2 r a)
      = sel4 u0 u1 u2 u3 a (ix2 r ⟨0, Nat.one_pos⟩) := by
  match a with
  | ⟨0, _⟩ =>
    exact concatenate_apply_piece (t := ⟨2, ![R, 4]⟩) (1 : Fin 2)
      [⟨⟨2, ![R, 1]⟩, u0⟩, ⟨⟨2, ![R, 1]⟩, u1⟩, ⟨⟨2, ![R, 1]⟩, u2⟩, ⟨⟨2, ![R, 1]⟩, u3⟩] h (ix2 r ⟨0, by decide⟩)
      0 (by show (0 : Nat) < 4; decide) ⟨2, ![R, 1]⟩ u0 rfl rfl 0 rfl
      (ix2 r ⟨0, Nat.one_pos⟩) (fun b hb => by match b with | ⟨0, _⟩ => rfl | ⟨1, _⟩ => exact absurd rfl hb) rfl
  | ⟨1, _⟩ =>
    exact concatenate_apply_piece (t := ⟨2, ![R, 4]⟩) (1 : Fin 2)
      [⟨⟨2, ![R, 1]⟩, u0⟩, ⟨⟨2, ![R, 1]⟩, u1⟩, ⟨⟨2, ![R, 1]⟩, u2⟩, ⟨⟨2, ![R, 1]⟩, u3⟩] h (ix2 r ⟨1, by decide⟩)
      1 (by show (1 : Nat) < 4; decide) ⟨2, ![R, 1]⟩ u1 rfl rfl 1 rfl
      (ix2 r ⟨0, Nat.one_pos⟩) (fun b hb => by match b with | ⟨0, _⟩ => rfl | ⟨1, _⟩ => exact absurd rfl hb) rfl
  | ⟨2, _⟩ =>
    exact concatenate_apply_piece (t := ⟨2, ![R, 4]⟩) (1 : Fin 2)
      [⟨⟨2, ![R, 1]⟩, u0⟩, ⟨⟨2, ![R, 1]⟩, u1⟩, ⟨⟨2, ![R, 1]⟩, u2⟩, ⟨⟨2, ![R, 1]⟩, u3⟩] h (ix2 r ⟨2, by decide⟩)
      2 (by show (2 : Nat) < 4; decide) ⟨2, ![R, 1]⟩ u2 rfl rfl 2 rfl
      (ix2 r ⟨0, Nat.one_pos⟩) (fun b hb => by match b with | ⟨0, _⟩ => rfl | ⟨1, _⟩ => exact absurd rfl hb) rfl
  | ⟨3, _⟩ =>
    exact concatenate_apply_piece (t := ⟨2, ![R, 4]⟩) (1 : Fin 2)
      [⟨⟨2, ![R, 1]⟩, u0⟩, ⟨⟨2, ![R, 1]⟩, u1⟩, ⟨⟨2, ![R, 1]⟩, u2⟩, ⟨⟨2, ![R, 1]⟩, u3⟩] h (ix2 r ⟨3, by decide⟩)
      3 (by show (3 : Nat) < 4; decide) ⟨2, ![R, 1]⟩ u3 rfl rfl 3 rfl
      (ix2 r ⟨0, Nat.one_pos⟩) (fun b hb => by match b with | ⟨0, _⟩ => rfl | ⟨1, _⟩ => exact absurd rfl hb) rfl

/-! ## The arguments' types, and the flattened boxes read at coordinates -/

abbrev X1 := (⟨S64x300x4, .f32⟩ : BufTy).Contents (Elt Ideal)
abbrev X2 := (⟨S64x32x4, .f32⟩ : BufTy).Contents (Elt Ideal)

/-- Row `b·300 + q` of the flattened predicted boxes is box `(b, q)`. -/
theorem v12_at (x1 : X1) (b : Fin 64) (q : Fin 300) (k : Fin 4) :
    val_main_v12 (F := Ideal) x1 (ix2 (⟨b.val * 300 + q.val, by omega⟩ : Fin 19200) k) = x1 (ix3 b q k) := by
  rw [val_main_v12_apply]
  refine congrArg x1 (funext fun a => Fin.ext ?_)
  have hb := b.isLt; have hq := q.isLt; have hk := k.isLt
  match a with
  | ⟨0, _⟩ => show ((b.val * 300 + q.val) * 4 + k.val) / 1200 = b.val; omega
  | ⟨1, _⟩ => show ((b.val * 300 + q.val) * 4 + k.val) / 4 % 300 = q.val; omega
  | ⟨2, _⟩ => show ((b.val * 300 + q.val) * 4 + k.val) % 4 = k.val; omega

/-- Row `t < 32` of the flattened target boxes is target `t` of batch 0. -/
theorem v13_at (x2 : X2) (t : Fin 32) (k : Fin 4) :
    val_main_v13 (F := Ideal) x2 (ix2 (⟨t.val, by omega⟩ : Fin 2048) k) = x2 (ix3 (0 : Fin 64) t k) := by
  rw [val_main_v13_apply]
  refine congrArg x2 (funext fun a => Fin.ext ?_)
  have ht := t.isLt; have hk := k.isLt
  match a with
  | ⟨0, _⟩ => show (t.val * 4 + k.val) / 128 = 0; omega
  | ⟨1, _⟩ => show (t.val * 4 + k.val) / 4 % 32 = t.val; omega
  | ⟨2, _⟩ => show (t.val * 4 + k.val) % 4 = k.val; omega

/-- Row `r` of the flattened predicted boxes, and row `c` of the flattened target boxes. -/
abbrev box (x1 : X1) (r : Fin 19200) : Fin 4 → EReal := fun a => val_main_v12 (F := Ideal) x1 (ix2 r a)
abbrev tgt (x2 : X2) (c : Fin 2048) : Fin 4 → EReal := fun a => val_main_v13 (F := Ideal) x2 (ix2 c a)

/-- The four corners of a box in the order the reference stores them: low 0, low 1, high 0, high 1. -/
def corners (b : Fin 4 → EReal) (a : Fin 4) : EReal := sel4 (Spec.lo0 b) (Spec.lo1 b) (Spec.hi0 b) (Spec.hi1 b) a

/-! ## The L1 distance -/

theorem v28_at (x1 : X1) (x2 : X2) (r : Fin 19200) (c : Fin 2048) (k : Fin 4) :
    val_main_v28 (F := Ideal) x1 x2 (ix3 r c k) = Spec.absE (box x1 r k - tgt x2 c k) := by
  rw [val_main_v28_apply, val_main_v27_apply, val_main_v25_apply, val_main_v23_apply, val_main_v26_apply, val_main_v24_apply]
  have e1 : idx_main_v23 (idx_main_v25 (ix3 r c k)) = ix2 r k :=
    funext fun a => Fin.ext (by match a with | ⟨0, _⟩ => rfl | ⟨1, _⟩ => rfl)
  have e2 : idx_main_v24 (idx_main_v26 (ix3 r c k)) = ix2 c k :=
    funext fun a => Fin.ext (by match a with | ⟨0, _⟩ => rfl | ⟨1, _⟩ => rfl)
  rw [e1, e2]
  rfl

theorem v29_at (x1 : X1) (x2 : X2) (r : Fin 19200) (c : Fin 2048) :
    val_main_v29 (F := Ideal) x1 x2 (ix2 r c) = Spec.l1 (box x1 r) (tgt x2 c) := by
  rw [val_main_v29_apply, val_main_cst_3_apply]
  refine (congrArg (· + _) Ideal.ofBits_zero_f32).trans ((zero_add _).trans ?_)
  refine Finset.sum_congr rfl fun k _ => ?_
  refine (congrArg (val_main_v28 (F := Ideal) x1 x2) (funext fun a => Fin.ext ?_)).trans (v28_at x1 x2 r c k)
  match a with
  | ⟨0, _⟩ => rfl
  | ⟨1, _⟩ => rfl
  | ⟨2, _⟩ => rfl

/-! ## The predictions' corners and area -/

theorem v31_at (x1 : X1) (r : Fin 19200) : val_main_v31 (F := Ideal) x1 (ix1 r) = box x1 r 0 := by
  rw [val_main_v31_apply, val_main_v30_apply]
  refine congrArg (val_main_v12 (F := Ideal) x1) (funext fun a => Fin.ext ?_)
  match a with
  | ⟨0, _⟩ => exact Nat.div_one _
  | ⟨1, _⟩ => rfl

theorem v33_at (x1 : X1) (r : Fin 19200) : val_main_v33 (F := Ideal) x1 (ix1 r) = box x1 r 1 := by
  rw [val_main_v33_apply, val_main_v32_apply]
  refine congrArg (val_main_v12 (F := Ideal) x1) (funext fun a => Fin.ext ?_)
  match a with
  | ⟨0, _⟩ => exact Nat.div_one _
  | ⟨1, _⟩ => rfl

theorem v35_at (x1 : X1) (r : Fin 19200) : val_main_v35 (F := Ideal) x1 (ix1 r) = box x1 r 2 := by
  rw [val_main_v35_apply, val_main_v34_apply]
  refine congrArg (val_main_v12 (F := Ideal) x1) (funext fun a => Fin.ext ?_)
  match a with
  | ⟨0, _⟩ => exact Nat.div_one _
  | ⟨1, _⟩ => rfl

theorem v37_at (x1 : X1) (r : Fin 19200) : val_main_v37 (F := Ideal) x1 (ix1 r) = box x1 r 3 := by
  rw [val_main_v37_apply, val_main_v36_apply]
  refine congrArg (val_main_v12 (F := Ideal) x1) (funext fun a => Fin.ext ?_)
  match a with
  | ⟨0, _⟩ => exact Nat.div_one _
  | ⟨1, _⟩ => rfl

theorem v40_at (x1 : X1) (r : Fin 19200) : val_main_v40 (F := Ideal) x1 (ix1 r) = Spec.lo0 (box x1 r) := by
  rw [val_main_v40_apply, val_main_v39_apply, val_main_v38_apply, val_main_cst_4_apply, v31_at, v35_at]
  rfl

theorem v43_at (x1 : X1) (r : Fin 19200) : val_main_v43 (F := Ideal) x1 (ix1 r) = Spec.lo1 (box x1 r) := by
  rw [val_main_v43_apply, val_main_v42_apply, val_main_v41_apply, val_main_cst_5_apply, v33_at, v37_at]
  rfl

theorem v46_at (x1 : X1) (r : Fin 19200) : val_main_v46 (F := Ideal) x1 (ix1 r) = Spec.hi0 (box x1 r) := by
  rw [val_main_v46_apply, val_main_v45_apply, val_main_v44_apply, val_main_cst_6_apply, v31_at, v35_at]
  rfl

theorem v49_at (x1 : X1) (r : Fin 19200) : val_main_v49 (F := Ideal) x1 (ix1 r) = Spec.hi1 (box x1 r) := by
  rw [val_main_v49_apply, val_main_v48_apply, val_main_v47_apply, val_main_cst_7_apply, v33_at, v37_at]
  rfl

theorem v50_at (x1 : X1) (r : Fin 19200) :
    val_main_v50 (F := Ideal) x1 (ix2 r (⟨0, Nat.one_pos⟩ : Fin 1)) = Spec.lo0 (box x1 r) := by
  rw [val_main_v50_apply]
  refine (congrArg (val_main_v40 (F := Ideal) x1) (funext fun a => Fin.ext ?_)).trans (v40_at x1 r)
  match a with
  | ⟨0, _⟩ => rfl

theorem v51_at (x1 : X1) (r : Fin 19200) :
    val_main_v51 (F := Ideal) x1 (ix2 r (⟨0, Nat.one_pos⟩ : Fin 1)) = Spec.lo1 (box x1 r) := by
  rw [val_main_v51_apply]
  refine (congrArg (val_main_v43 (F := Ideal) x1) (funext fun a => Fin.ext ?_)).trans (v43_at x1 r)
  match a with
  | ⟨0, _⟩ => rfl

theorem v52_at (x1 : X1) (r : Fin 19200) :
    val_main_v52 (F := Ideal) x1 (ix2 r (⟨0, Nat.one_pos⟩ : Fin 1)) = Spec.hi0 (box x1 r) := by
  rw [val_main_v52_apply]
  refine (congrArg (val_main_v46 (F := Ideal) x1) (funext fun a => Fin.ext ?_)).trans (v46_at x1 r)
  match a with
  | ⟨0, _⟩ => rfl

theorem v53_at (x1 : X1) (r : Fin 19200) :
    val_main_v53 (F := Ideal) x1 (ix2 r (⟨0, Nat.one_pos⟩ : Fin 1)) = Spec.hi1 (box x1 r) := by
  rw [val_main_v53_apply]
  refine (congrArg (val_main_v49 (F := Ideal) x1) (funext fun a => Fin.ext ?_)).trans (v49_at x1 r)
  match a with
  | ⟨0, _⟩ => rfl

/-- The predictions' corner array: column `a` of row `r` is corner `a` of row `r`'s box. -/
theorem v54_at (x1 : X1) (r : Fin 19200) (a : Fin 4) :
    val_main_v54 (F := Ideal) x1 (ix2 r a) = corners (box x1 r) a := by
  unfold val_main_v54
  refine (concat4_apply (val_main_v50 (F := Ideal) x1) (val_main_v51 (F := Ideal) x1) (val_main_v52 (F := Ideal) x1)
    (val_main_v53 (F := Ideal) x1) concatenates_S19200x1_S19200x1_S19200x1_S19200x1_S19200x4_d1 r a).trans ?_
  match a with
  | ⟨0, _⟩ => exact v50_at x1 r
  | ⟨1, _⟩ => exact v51_at x1 r
  | ⟨2, _⟩ => exact v52_at x1 r
  | ⟨3, _⟩ => exact v53_at x1 r

theorem v81_at (x1 : X1) (r : Fin 19200) : val_main_v81 (F := Ideal) x1 (ix1 r) = Spec.hi0 (box x1 r) := by
  rw [val_main_v81_apply, val_main_v80_apply]
  refine (congrArg (val_main_v54 (F := Ideal) x1) (funext fun a => Fin.ext ?_)).trans (v54_at x1 r 2)
  match a with
  | ⟨0, _⟩ => exact Nat.div_one _
  | ⟨1, _⟩ => rfl

theorem v83_at (x1 : X1) (r : Fin 19200) : val_main_v83 (F := Ideal) x1 (ix1 r) = Spec.lo0 (box x1 r) := by
  rw [val_main_v83_apply, val_main_v82_apply]
  refine (congrArg (val_main_v54 (F := Ideal) x1) (funext fun a => Fin.ext ?_)).trans (v54_at x1 r 0)
  match a with
  | ⟨0, _⟩ => exact Nat.div_one _
  | ⟨1, _⟩ => rfl

theorem v86_at (x1 : X1) (r : Fin 19200) : val_main_v86 (F := Ideal) x1 (ix1 r) = Spec.hi1 (box x1 r) := by
  rw [val_main_v86_apply, val_main_v85_apply]
  refine (congrArg (val_main_v54 (F := Ideal) x1) (funext fun a => Fin.ext ?_)).trans (v54_at x1 r 3)
  match a with
  | ⟨0, _⟩ => exact Nat.div_one _
  | ⟨1, _⟩ => rfl

theorem v88_at (x1 : X1) (r : Fin 19200) : val_main_v88 (F := Ideal) x1 (ix1 r) = Spec.lo1 (box x1 r) := by
  rw [val_main_v88_apply, val_main_v87_apply]
  refine (congrArg (val_main_v54 (F := Ideal) x1) (funext fun a => Fin.ext ?_)).trans (v54_at x1 r 1)
  match a with
  | ⟨0, _⟩ => exact Nat.div_one _
  | ⟨1, _⟩ => rfl

/-- The area of the predicted box in row `r`. -/
theorem v90_at (x1 : X1) (r : Fin 19200) : val_main_v90 (F := Ideal) x1 (ix1 r) = Spec.area (box x1 r) := by
  rw [val_main_v90_apply, val_main_v84_apply, val_main_v89_apply, v81_at, v83_at, v86_at, v88_at]
  rfl

/-! ## The targets' corners and area -/

theorem v56_at (x2 : X2) (c : Fin 2048) : val_main_v56 (F := Ideal) x2 (ix1 c) = tgt x2 c 0 := by
  rw [val_main_v56_apply, val_main_v55_apply]
  refine congrArg (val_main_v13 (F := Ideal) x2) (funext fun a => Fin.ext ?_)
  match a with
  | ⟨0, _⟩ => exact Nat.div_one _
  | ⟨1, _⟩ => rfl

theorem v58_at (x2 : X2) (c : Fin 2048) : val_main_v58 (F := Ideal) x2 (ix1 c) = tgt x2 c 1 := by
  rw [val_main_v58_apply, val_main_v57_apply]
  refine congrArg (val_main_v13 (F := Ideal) x2) (funext fun a => Fin.ext ?_)
  match a with
  | ⟨0, _⟩ => exact Nat.div_one _
  | ⟨1, _⟩ => rfl

theorem v60_at (x2 : X2) (c : Fin 2048) : val_main_v60 (F := Ideal) x2 (ix1 c) = tgt x2 c 2 := by
  rw [val_main_v60_apply, val_main_v59_apply]
  refine congrArg (val_main_v13 (F := Ideal) x2) (funext fun a => Fin.ext ?_)
  match a with
  | ⟨0, _⟩ => exact Nat.div_one _
  | ⟨1, _⟩ => rfl

theorem v62_at (x2 : X2) (c : Fin 2048) : val_main_v62 (F := Ideal) x2 (ix1 c) = tgt x2 c 3 := by
  rw [val_main_v62_apply, val_main_v61_apply]
  refine congrArg (val_main_v13 (F := Ideal) x2) (funext fun a => Fin.ext ?_)
  match a with
  | ⟨0, _⟩ => exact Nat.div_one _
  | ⟨1, _⟩ => rfl

theorem v65_at (x2 : X2) (c : Fin 2048) : val_main_v65 (F := Ideal) x2 (ix1 c) = Spec.lo0 (tgt x2 c) := by
  rw [val_main_v65_apply, val_main_v64_apply, val_main_v63_apply, val_main_cst_8_apply, v56_at, v60_at]
  rfl

theorem v68_at (x2 : X2) (c : Fin 2048) : val_main_v68 (F := Ideal) x2 (ix1 c) = Spec.lo1 (tgt x2 c) := by
  rw [val_main_v68_apply, val_main_v67_apply, val_main_v66_apply, val_main_cst_9_apply, v58_at, v62_at]
  rfl

theorem v71_at (x2 : X2) (c : Fin 2048) : val_main_v71 (F := Ideal) x2 (ix1 c) = Spec.hi0 (tgt x2 c) := by
  rw [val_main_v71_apply, val_main_v70_apply, val_main_v69_apply, val_main_cst_10_apply, v56_at, v60_at]
  rfl

theorem v74_at (x2 : X2) (c : Fin 2048) : val_main_v74 (F := Ideal) x2 (ix1 c) = Spec.hi1 (tgt x2 c) := by
  rw [val_main_v74_apply, val_main_v73_apply, val_main_v72_apply, val_main_cst_11_apply, v58_at, v62_at]
  rfl

theorem v75_at (x2 : X2) (c : Fin 2048) :
    val_main_v75 (F := Ideal) x2 (ix2 c (⟨0, Nat.one_pos⟩ : Fin 1)) = Spec.lo0 (tgt x2 c) := by
  rw [val_main_v75_apply]
  refine (congrArg (val_main_v65 (F := Ideal) x2) (funext fun a => Fin.ext ?_)).trans (v65_at x2 c)
  match a with
  | ⟨0, _⟩ => rfl

theorem v76_at (x2 : X2) (c : Fin 2048) :
    val_main_v76 (F := Ideal) x2 (ix2 c (⟨0, Nat.one_pos⟩ : Fin 1)) = Spec.lo1 (tgt x2 c) := by
  rw [val_main_v76_apply]
  refine (congrArg (val_main_v68 (F := Ideal) x2) (funext fun a => Fin.ext ?_)).trans (v68_at x2 c)
  match a with
  | ⟨0, _⟩ => rfl

theorem v77_at (x2 : X2) (c : Fin 2048) :
    val_main_v77 (F := Ideal) x2 (ix2 c (⟨0, Nat.one_pos⟩ : Fin 1)) = Spec.hi0 (tgt x2 c) := by
  rw [val_main_v77_apply]
  refine (congrArg (val_main_v71 (F := Ideal) x2) (funext fun a => Fin.ext ?_)).trans (v71_at x2 c)
  match a with
  | ⟨0, _⟩ => rfl

theorem v78_at (x2 : X2) (c : Fin 2048) :
    val_main_v78 (F := Ideal) x2 (ix2 c (⟨0, Nat.one_pos⟩ : Fin 1)) = Spec.hi1 (tgt x2 c) := by
  rw [val_main_v78_apply]
  refine (congrArg (val_main_v74 (F := Ideal) x2) (funext fun a => Fin.ext ?_)).trans (v74_at x2 c)
  match a with
  | ⟨0, _⟩ => rfl

/-- The targets' corner array: column `a` of row `c` is corner `a` of row `c`'s box. -/
theorem v79_at (x2 : X2) (c : Fin 2048) (a : Fin 4) :
    val_main_v79 (F := Ideal) x2 (ix2 c a) = corners (tgt x2 c) a := by
  unfold val_main_v79
  refine (concat4_apply (val_main_v75 (F := Ideal) x2) (val_main_v76 (F := Ideal) x2) (val_main_v77 (F := Ideal) x2)
    (val_main_v78 (F := Ideal) x2) concatenates_S2048x1_S2048x1_S2048x1_S2048x1_S2048x4_d1 c a).trans ?_
  match a with
  | ⟨0, _⟩ => exact v75_at x2 c
  | ⟨1, _⟩ => exact v76_at x2 c
  | ⟨2, _⟩ => exact v77_at x2 c
  | ⟨3, _⟩ => exact v78_at x2 c

theorem v92_at (x2 : X2) (c : Fin 2048) : val_main_v92 (F := Ideal) x2 (ix1 c) = Spec.hi0 (tgt x2 c) := by
  rw [val_main_v92_apply, val_main_v91_apply]
  refine (congrArg (val_main_v79 (F := Ideal) x2) (funext fun a => Fin.ext ?_)).trans (v79_at x2 c 2)
  match a with
  | ⟨0, _⟩ => exact Nat.div_one _
  | ⟨1, _⟩ => rfl

theorem v94_at (x2 : X2) (c : Fin 2048) : val_main_v94 (F := Ideal) x2 (ix1 c) = Spec.lo0 (tgt x2 c) := by
  rw [val_main_v94_apply, val_main_v93_apply]
  refine (congrArg (val_main_v79 (F := Ideal) x2) (funext fun a => Fin.ext ?_)).trans (v79_at x2 c 0)
  match a with
  | ⟨0, _⟩ => exact Nat.div_one _
  | ⟨1, _⟩ => rfl

theorem v97_at (x2 : X2) (c : Fin 2048) : val_main_v97 (F := Ideal) x2 (ix1 c) = Spec.hi1 (tgt x2 c) := by
  rw [val_main_v97_apply, val_main_v96_apply]
  refine (congrArg (val_main_v79 (F := Ideal) x2) (funext fun a => Fin.ext ?_)).trans (v79_at x2 c 3)
  match a with
  | ⟨0, _⟩ => exact Nat.div_one _
  | ⟨1, _⟩ => rfl

theorem v99_at (x2 : X2) (c : Fin 2048) : val_main_v99 (F := Ideal) x2 (ix1 c) = Spec.lo1 (tgt x2 c) := by
  rw [val_main_v99_apply, val_main_v98_apply]
  refine (congrArg (val_main_v79 (F := Ideal) x2) (funext fun a => Fin.ext ?_)).trans (v79_at x2 c 1)
  match a with
  | ⟨0, _⟩ => exact Nat.div_one _
  | ⟨1, _⟩ => rfl

/-- The area of the target box in row `c`. -/
theorem v101_at (x2 : X2) (c : Fin 2048) : val_main_v101 (F := Ideal) x2 (ix1 c) = Spec.area (tgt x2 c) := by
  rw [val_main_v101_apply, val_main_v95_apply, val_main_v100_apply, v92_at, v94_at, v97_at, v99_at]
  rfl

end Cert.RefSide

end
-- ==== Proof.RefValueC.lean ====
/-
  The reference's generalized-IoU term, entry by entry, over the two corner arrays and the two area vectors taken as
  given: the intersection's and the smallest enclosing box's sides (each clipped at 0) and areas, the union's area, the
  two quotients, their difference and its negation. Every statement is at explicit coordinates.
-/
import proofs.«421090_j12876311953748_3_alg».proof.Proof.Gen.ReferenceIdeal.Read
import proofs.«421090_j12876311953748_3_alg».proof.Proof.Spec
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RefSide

open Cert.ReferenceIdeal Cert.ReferenceIdeal.Gen Cert.ReferenceIdeal.Read Idealize.ShloMosaic Idealize.ShloMosaic.ValueIdx

/-! ## Corner columns, and the term over given corners and areas -/

/-- The column of the low end, and of the high end, on axis `d` in a corner array (low 0, low 1, high 0, high 1). -/
abbrev lo4 (d : Fin 2) : Fin 4 := ⟨d.val, by omega⟩
abbrev hi4 (d : Fin 2) : Fin 4 := ⟨2 + d.val, by omega⟩

/-- The intersection's side on axis `d`, clipped at 0. -/
def interSide (P G : Fin 4 → EReal) (d : Fin 2) : EReal :=
  max (min (P (hi4 d)) (G (hi4 d)) - max (P (lo4 d)) (G (lo4 d))) Spec.zero
/-- The smallest enclosing box's side on axis `d`, clipped at 0. -/
def encSide (P G : Fin 4 → EReal) (d : Fin 2) : EReal :=
  max (max (P (hi4 d)) (G (hi4 d)) - min (P (lo4 d)) (G (lo4 d))) Spec.zero
/-- The intersection's area, the union's, the enclosing box's, and the generalized IoU, over given corners and areas. -/
def interOf (P G : Fin 4 → EReal) : EReal := interSide P G 0 * interSide P G 1
def unionOf (P G : Fin 4 → EReal) (aP aG : EReal) : EReal := aP + aG - interOf P G
def encOf (P G : Fin 4 → EReal) : EReal := encSide P G 0 * encSide P G 1
def giouOf (P G : Fin 4 → EReal) (aP aG : EReal) : EReal :=
  Ideal.div (interOf P G) (unionOf P G aP aG) - Ideal.div (encOf P G - unionOf P G aP aG) (encOf P G)

abbrev Y1 := (⟨S64x300x4, .f32⟩ : BufTy).Contents (Elt Ideal)
abbrev Y2 := (⟨S64x32x4, .f32⟩ : BufTy).Contents (Elt Ideal)

/-- Row `r` of the predictions' corner array, and row `c` of the targets'. -/
abbrev pc (x1 : Y1) (r : Fin 19200) : Fin 4 → EReal := fun a => val_main_v54 (F := Ideal) x1 (ix2 r a)
abbrev gc (x2 : Y2) (c : Fin 2048) : Fin 4 → EReal := fun a => val_main_v79 (F := Ideal) x2 (ix2 c a)

/-! ## The intersection -/

theorem v106_at (x1 : Y1) (r : Fin 19200) (c : Fin 2048) (d : Fin 2) :
    val_main_v106 (F := Ideal) x1 (ix3 r c d) = pc x1 r (lo4 d) := by
  rw [val_main_v106_apply, val_main_v103_apply, val_main_v102_apply]
  refine congrArg (val_main_v54 (F := Ideal) x1) (funext fun a => Fin.ext ?_)
  match a with
  | ⟨0, _⟩ => rfl
  | ⟨1, _⟩ => rfl

theorem v107_at (x2 : Y2) (r : Fin 19200) (c : Fin 2048) (d : Fin 2) :
    val_main_v107 (F := Ideal) x2 (ix3 r c d) = gc x2 c (lo4 d) := by
  rw [val_main_v107_apply, val_main_v105_apply, val_main_v104_apply]
  refine congrArg (val_main_v79 (F := Ideal) x2) (funext fun a => Fin.ext ?_)
  match a with
  | ⟨0, _⟩ => rfl
  | ⟨1, _⟩ => rfl

theorem v113_at (x1 : Y1) (r : Fin 19200) (c : Fin 2048) (d : Fin 2) :
    val_main_v113 (F := Ideal) x1 (ix3 r c d) = pc x1 r (hi4 d) := by
  rw [val_main_v113_apply, val_main_v110_apply, val_main_v109_apply]
  refine congrArg (val_main_v54 (F := Ideal) x1) (funext fun a => Fin.ext ?_)
  match a with
  | ⟨0, _⟩ => rfl
  | ⟨1, _⟩ => rfl

theorem v114_at (x2 : Y2) (r : Fin 19200) (c : Fin 2048) (d : Fin 2) :
    val_main_v114 (F := Ideal) x2 (ix3 r c d) = gc x2 c (hi4 d) := by
  rw [val_main_v114_apply, val_main_v112_apply, val_main_v111_apply]
  refine congrArg (val_main_v79 (F := Ideal) x2) (funext fun a => Fin.ext ?_)
  match a with
  | ⟨0, _⟩ => rfl
  | ⟨1, _⟩ => rfl

theorem v117_at (x1 : Y1) (x2 : Y2) (r : Fin 19200) (c : Fin 2048) (d : Fin 2) :
    val_main_v117 (F := Ideal) x1 x2 (ix3 r c d) = interSide (pc x1 r) (gc x2 c) d := by
  rw [val_main_v117_apply, val_main_call0_v1_apply, val_main_call0_v0_apply, val_main_cst_12_apply, val_main_v116_apply,
    val_main_v115_apply, val_main_v108_apply, v106_at, v107_at, v113_at, v114_at]
  exact max_comm _ _

theorem v119_at (x1 : Y1) (x2 : Y2) (r : Fin 19200) (c : Fin 2048) :
    val_main_v119 (F := Ideal) x1 x2 (ix2 r c) = interSide (pc x1 r) (gc x2 c) 0 := by
  rw [val_main_v119_apply, val_main_v118_apply]
  refine (congrArg (val_main_v117 (F := Ideal) x1 x2) (funext fun a => Fin.ext ?_)).trans (v117_at x1 x2 r c 0)
  have hr := r.isLt; have hc := c.isLt
  match a with
  | ⟨0, _⟩ => show (r.val * 2048 + c.val) / 2048 = r.val; omega
  | ⟨1, _⟩ => show (r.val * 2048 + c.val) / 1 % 2048 = c.val; omega
  | ⟨2, _⟩ => rfl

theorem v121_at (x1 : Y1) (x2 : Y2) (r : Fin 19200) (c : Fin 2048) :
    val_main_v121 (F := Ideal) x1 x2 (ix2 r c) = interSide (pc x1 r) (gc x2 c) 1 := by
  rw [val_main_v121_apply, val_main_v120_apply]
  refine (congrArg (val_main_v117 (F := Ideal) x1 x2) (funext fun a => Fin.ext ?_)).trans (v117_at x1 x2 r c 1)
  have hr := r.isLt; have hc := c.isLt
  match a with
  | ⟨0, _⟩ => show (r.val * 2048 + c.val) / 2048 = r.val; omega
  | ⟨1, _⟩ => show (r.val * 2048 + c.val) / 1 % 2048 = c.val; omega
  | ⟨2, _⟩ => rfl

theorem v122_at (x1 : Y1) (x2 : Y2) (r : Fin 19200) (c : Fin 2048) :
    val_main_v122 (F := Ideal) x1 x2 (ix2 r c) = interOf (pc x1 r) (gc x2 c) := by
  rw [val_main_v122_apply, v119_at, v121_at]
  rfl

/-! ## The union and the IoU -/

theorem v127_at (x1 : Y1) (x2 : Y2) (r : Fin 19200) (c : Fin 2048) :
    val_main_v127 (F := Ideal) x1 x2 (ix2 r c) = val_main_v90 (F := Ideal) x1 (ix1 r) + val_main_v101 (F := Ideal) x2 (ix1 c) := by
  rw [val_main_v127_apply, val_main_v125_apply, val_main_v123_apply, val_main_v126_apply, val_main_v124_apply]
  have e1 : idx_main_v123 (idx_main_v125 (ix2 r c)) = ix1 r :=
    funext fun a => Fin.ext (by match a with | ⟨0, _⟩ => rfl)
  have e2 : idx_main_v124 (idx_main_v126 (ix2 r c)) = ix1 c :=
    funext fun a => Fin.ext (by match a with | ⟨0, _⟩ => rfl)
  rw [e1, e2]
  rfl

theorem v128_at (x1 : Y1) (x2 : Y2) (r : Fin 19200) (c : Fin 2048) :
    val_main_v128 (F := Ideal) x1 x2 (ix2 r c)
      = unionOf (pc x1 r) (gc x2 c) (val_main_v90 (F := Ideal) x1 (ix1 r)) (val_main_v101 (F := Ideal) x2 (ix1 c)) := by
  rw [val_main_v128_apply, v127_at, v122_at]
  rfl

theorem v129_at (x1 : Y1) (x2 : Y2) (r : Fin 19200) (c : Fin 2048) :
    val_main_v129 (F := Ideal) x1 x2 (ix2 r c)
      = Ideal.div (interOf (pc x1 r) (gc x2 c))
          (unionOf (pc x1 r) (gc x2 c) (val_main_v90 (F := Ideal) x1 (ix1 r)) (val_main_v101 (F := Ideal) x2 (ix1 c))) := by
  rw [val_main_v129_apply, v122_at, v128_at]
  rfl

/-! ## The smallest enclosing box -/

theorem v134_at (x1 : Y1) (r : Fin 19200) (c : Fin 2048) (d : Fin 2) :
    val_main_v134 (F := Ideal) x1 (ix3 r c d) = pc x1 r (lo4 d) := by
  rw [val_main_v134_apply, val_main_v131_apply, val_main_v130_apply]
  refine congrArg (val_main_v54 (F := Ideal) x1) (funext fun a => Fin.ext ?_)
  match a with
  | ⟨0, _⟩ => rfl
  | ⟨1, _⟩ => rfl

theorem v135_at (x2 : Y2) (r : Fin 19200) (c : Fin 2048) (d : Fin 2) :
    val_main_v135 (F := Ideal) x2 (ix3 r c d) = gc x2 c (lo4 d) := by
  rw [val_main_v135_apply, val_main_v133_apply, val_main_v132_apply]
  refine congrArg (val_main_v79 (F := Ideal) x2) (funext fun a => Fin.ext ?_)
  match a with
  | ⟨0, _⟩ => rfl
  | ⟨1, _⟩ => rfl

theorem v141_at (x1 : Y1) (r : Fin 19200) (c : Fin 2048) (d : Fin 2) :
    val_main_v141 (F := Ideal) x1 (ix3 r c d) = pc x1 r (hi4 d) := by
  rw [val_main_v141_apply, val_main_v138_apply, val_main_v137_apply]
  refine congrArg (val_main_v54 (F := Ideal) x1) (funext fun a => Fin.ext ?_)
  match a with
  | ⟨0, _⟩ => rfl
  | ⟨1, _⟩ => rfl

theorem v142_at (x2 : Y2) (r : Fin 19200) (c : Fin 2048) (d : Fin 2) :
    val_main_v142 (F := Ideal) x2 (ix3 r c d) = gc x2 c (hi4 d) := by
  rw [val_main_v142_apply, val_main_v140_apply, val_main_v139_apply]
  refine congrArg (val_main_v79 (F := Ideal) x2) (funext fun a => Fin.ext ?_)
  match a with
  | ⟨0, _⟩ => rfl
  | ⟨1, _⟩ => rfl

theorem v145_at (x1 : Y1) (x2 : Y2) (r : Fin 19200) (c : Fin 2048) (d : Fin 2) :
    val_main_v145 (F := Ideal) x1 x2 (ix3 r c d) = encSide (pc x1 r) (gc x2 c) d := by
  rw [val_main_v145_apply, val_main_call1_v1_apply, val_main_call1_v0_apply, val_main_cst_13_apply, val_main_v144_apply,
    val_main_v143_apply, val_main_v136_apply, v134_at, v135_at, v141_at, v142_at]
  exact max_comm _ _

theorem v147_at (x1 : Y1) (x2 : Y2) (r : Fin 19200) (c : Fin 2048) :
    val_main_v147 (F := Ideal) x1 x2 (ix2 r c) = encSide (pc x1 r) (gc x2 c) 0 := by
  rw [val_main_v147_apply, val_main_v146_apply]
  refine (congrArg (val_main_v145 (F := Ideal) x1 x2) (funext fun a => Fin.ext ?_)).trans (v145_at x1 x2 r c 0)
  have hr := r.isLt; have hc := c.isLt
  match a with
  | ⟨0, _⟩ => show (r.val * 2048 + c.val) / 2048 = r.val; omega
  | ⟨1, _⟩ => show (r.val * 2048 + c.val) / 1 % 2048 = c.val; omega
  | ⟨2, _⟩ => rfl

theorem v149_at (x1 : Y1) (x2 : Y2) (r : Fin 19200) (c : Fin 2048) :
    val_main_v149 (F := Ideal) x1 x2 (ix2 r c) = encSide (pc x1 r) (gc x2 c) 1 := by
  rw [val_main_v149_apply, val_main_v148_apply]
  refine (congrArg (val_main_v145 (F := Ideal) x1 x2) (funext fun a => Fin.ext ?_)).trans (v145_at x1 x2 r c 1)
  have hr := r.isLt; have hc := c.isLt
  match a with
  | ⟨0, _⟩ => show (r.val * 2048 + c.val) / 2048 = r.val; omega
  | ⟨1, _⟩ => show (r.val * 2048 + c.val) / 1 % 2048 = c.val; omega
  | ⟨2, _⟩ => rfl

theorem v150_at (x1 : Y1) (x2 : Y2) (r : Fin 19200) (c : Fin 2048) :
    val_main_v150 (F := Ideal) x1 x2 (ix2 r c) = encOf (pc x1 r) (gc x2 c) := by
  rw [val_main_v150_apply, v147_at, v149_at]
  rfl

/-! ## The generalized IoU and its negation -/

theorem v153_at (x1 : Y1) (x2 : Y2) (r : Fin 19200) (c : Fin 2048) :
    val_main_v153 (F := Ideal) x1 x2 (ix2 r c)
      = giouOf (pc x1 r) (gc x2 c) (val_main_v90 (F := Ideal) x1 (ix1 r)) (val_main_v101 (F := Ideal) x2 (ix1 c)) := by
  rw [val_main_v153_apply, val_main_v152_apply, val_main_v151_apply, v129_at, v150_at, v128_at]
  rfl

theorem v154_at (x1 : Y1) (x2 : Y2) (r : Fin 19200) (c : Fin 2048) :
    val_main_v154 (F := Ideal) x1 x2 (ix2 r c)
      = -(giouOf (pc x1 r) (gc x2 c) (val_main_v90 (F := Ideal) x1 (ix1 r)) (val_main_v101 (F := Ideal) x2 (ix1 c))) := by
  rw [val_main_v154_apply, v153_at]
  rfl

end Cert.RefSide

end
-- ==== Proof.RefValue.lean ====
/-
  The reference program's result, read entry by entry, is the specification G: entry (b, q, t) of the result is entry
  (b·300 + q, t) of the flattened cost matrix, which is the class term plus five times the L1 term plus twice the
  (negated) generalized-IoU term of row b·300 + q against column t; the flattened arguments' rows are the arguments'
  own (b, q) and (0, t) rows.
-/
import proofs.«421090_j12876311953748_3_alg».proof.Proof.RefValueA
import proofs.«421090_j12876311953748_3_alg».proof.Proof.RefValueB
import proofs.«421090_j12876311953748_3_alg».proof.Proof.RefValueC

noncomputable section

open scoped BigOperators

namespace Cert.RefSide

open Cert.ReferenceIdeal Cert.ReferenceIdeal.Gen Cert.ReferenceIdeal.Read Idealize.ShloMosaic Idealize.ShloMosaic.ValueIdx

/-- Over a box's own corners and area the term over given corners and areas is the specification's generalized IoU. -/
theorem giouOf_corners (p g : Fin 4 → EReal) :
    giouOf (corners p) (corners g) (Spec.area p) (Spec.area g) = Spec.giou p g := rfl

/-- Entry (r, c) of the flattened cost matrix. -/
theorem v162_at (x0 : X0) (x1 : X1) (x2 : X2) (x3 : X3) (r : Fin 19200) (c : Fin 2048) :
    val_main_v162 (F := Ideal) x0 x1 x2 x3 (ix2 r c)
      = Spec.cost (row x0 r) (box x1 r) (tgt x2 c) (Spec.clsOf (val_main_v14 (F := Ideal) x3 (ix1 c))) := by
  rw [val_main_v162_apply, val_main_v159_apply, val_main_v161_apply, val_main_v156_apply, val_main_v158_apply,
    val_main_v155_apply, val_main_cst_14_apply, val_main_v157_apply, val_main_cst_15_apply, val_main_v160_apply,
    val_main_cst_16_apply, v22_at, v29_at, v154_at, v90_at, v101_at]
  have hP : pc x1 r = corners (box x1 r) := funext (v54_at x1 r)
  have hG : gc x2 c = corners (tgt x2 c) := funext (v79_at x2 c)
  rw [hP, hG, giouOf_corners]
  rfl

/-- The reference's result is the specification. -/
theorem ref_eq (x0 : (⟨Cert.ReferenceIdeal.S64x300x13, .f32⟩ : BufTy).Contents (Elt Ideal))
    (x1 : (⟨Cert.ReferenceIdeal.S64x300x4, .f32⟩ : BufTy).Contents (Elt Ideal))
    (x2 : (⟨Cert.ReferenceIdeal.S64x32x4, .f32⟩ : BufTy).Contents (Elt Ideal))
    (x3 : (⟨Cert.ReferenceIdeal.S64x32, .i32⟩ : BufTy).Contents (Elt Ideal)) :
    Cert.ReferenceIdeal.Read.val_main_v164 (F := Ideal) x0 x1 x2 x3 = Cert.Spec.G x0 x1 x2 x3 := by
  funext i
  obtain ⟨b, q, t, rfl⟩ : ∃ (b : Fin 64) (q : Fin 300) (t : Fin 32), i = ix3 b q t := ⟨i 0, i 1, i 2, eq_ix3 i⟩
  have hb := b.isLt; have hq := q.isLt; have ht := t.isLt
  rw [val_main_v164_apply, val_main_v163_apply]
  have e : idx_main_v163 (idx_main_v164 (ix3 b q t))
      = ix2 (⟨b.val * 300 + q.val, by omega⟩ : Fin 19200) (⟨t.val, by omega⟩ : Fin 2048) :=
    funext fun a => Fin.ext (by
      match a with
      | ⟨0, _⟩ => show ((b.val * 300 + q.val) * 2048 + t.val) / 2048 = b.val * 300 + q.val; omega
      | ⟨1, _⟩ => show ((b.val * 300 + q.val) * 2048 + t.val) % 2048 = t.val; omega)
  rw [e, v162_at]
  have h0 : row x0 (⟨b.val * 300 + q.val, by omega⟩ : Fin 19200) = fun k => x0 (ix3 b q k) := funext (v0_at x0 b q)
  have h1 : box x1 (⟨b.val * 300 + q.val, by omega⟩ : Fin 19200) = fun a => x1 (ix3 b q a) := funext (v12_at x1 b q)
  have h2 : tgt x2 (⟨t.val, by omega⟩ : Fin 2048) = fun a => x2 (ix3 (0 : Fin 64) t a) := funext (v13_at x2 t)
  rw [h0, h1, h2, v14_at]
  rfl

end Cert.RefSide

end
-- ==== Proof.lean ====
/-
  Certificate of the Hungarian-matcher cost matrix (class probability, box L1 distance and generalized IoU of 19200
  predictions against the 32 targets of batch 0): the Pallas kernel against its jnp reference, over the extended reals,
  under the precondition that every float input is finite and every class id lies in [0, 13).

  Both programs compute, entry by entry, the function G of Spec: the reference builds the cost against all 64·32 flattened
  targets with a gather of the softmax at the (wrapped, clamped) class ids and keeps the first 32 columns, which are batch 0's
  (RefValue over the generated run and its read-at-an-index lemmas); the kernel multiplies the softmax with a 0/1
  class-indicator matrix of batch 0's ids, which picks the softmax at the class exactly when the id is a class (KernelPay,
  KernelArray, KernelRun over the generated frame run; PreIds reads the id range off the precondition). The frames of the two
  kernel programs are the generated ones, the reference's frame is its generated run with the result dropped, and the ideal
  pass rewrote nothing, so the idealization claim is trivial.
-/
import proofs.«421090_j12876311953748_3_alg».proof.Defs
import proofs.«421090_j12876311953748_3_alg».proof.Proof.Gen.Kernel
import proofs.«421090_j12876311953748_3_alg».proof.Proof.Gen.Kernel.Skeleton
import proofs.«421090_j12876311953748_3_alg».proof.Proof.Gen.Kernel.Launch
import proofs.«421090_j12876311953748_3_alg».proof.Proof.Gen.Kernel.Points
import proofs.«421090_j12876311953748_3_alg».proof.Proof.Gen.Kernel.Frame
import proofs.«421090_j12876311953748_3_alg».proof.Proof.Gen.KernelIdeal
import proofs.«421090_j12876311953748_3_alg».proof.Proof.Gen.KernelIdeal.Skeleton
import proofs.«421090_j12876311953748_3_alg».proof.Proof.Gen.KernelIdeal.Launch
import proofs.«421090_j12876311953748_3_alg».proof.Proof.Gen.KernelIdeal.Points
import proofs.«421090_j12876311953748_3_alg».proof.Proof.Gen.KernelIdeal.Frame
import proofs.«421090_j12876311953748_3_alg».proof.Proof.Gen.ReferenceIdeal
import proofs.«421090_j12876311953748_3_alg».proof.Proof.Gen.ReferenceIdeal.Run
import proofs.«421090_j12876311953748_3_alg».proof.Proof.Gen.ReferenceIdeal.Read
import proofs.«421090_j12876311953748_3_alg».proof.Proof.Gen.Pre_finite_inputs
import proofs.«421090_j12876311953748_3_alg».proof.Proof.PreIds
import proofs.«421090_j12876311953748_3_alg».proof.Proof.KernelRun
import proofs.«421090_j12876311953748_3_alg».proof.Proof.RefValue
import Idealize.ShloMosaic.Adequacy
import Idealize.ShloMosaic.Init

noncomputable section

namespace Cert.Proof

open Idealize.ShloMosaic Idealize.SL.Sem Idealize.ShloMosaic.ValueIdx

attribute [local instance] Cert.Kernel.Gen.facts Cert.KernelIdeal.Gen.facts Cert.ReferenceIdeal.Gen.facts Cert.Pre_finite_inputs.Gen.facts

/-- The kernel program as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the cost matrix G of the arguments. -/
theorem algebraic : Cert.algebraic_KernelIdeal_ReferenceIdeal := by
  intro m ρ m' ρ' hpre hagree
  have hids : ∀ c : Dev Cert.KernelIdeal.nD, Cert.KernelSide.IdsOk m c := fun c t' =>
    Cert.PreIds.ids_in_range (F := Ideal) _ _ _ _ (hpre c) (ix2 (0 : Fin 64) t')
  refine ⟨fun c => Cert.Spec.G (Cert.KernelSide.a0 m c) (Cert.KernelSide.a1 m c) (Cert.KernelSide.a2 m c) (Cert.KernelSide.a3 m c),
    Cert.KernelSide.run m ρ hids, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v164_eq, Cert.RefSide.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
